-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part5 {F : FTy → Type} [FloatOps F] (main_arg18 : FVec F S2048 .f32) (main_v83 : IVec S_ 1) (main_v84 : FVec F S2048x2048 .f32) (main_cst_32 : FVec F S_ .f32) : IVec S_ 1 :=
  let main_v85 : FVec F S2048x2048 .f32 := broadcastInDim S2048x2048 ![] bcast_S_S2048x2048 main_cst_32
  let main_v86 : IVec S2048x2048 1 := cmpf .olt main_v84 main_v85
  let main_c_33 : IVec S_ 1 := constantI S_ 1 1#1
  let main_v87 : IVec S_ 1 := (fun x v => Host.reduce IntOp.andi x v reducesTo_S2048x2048_S_d0_1 h_S_) main_v86 main_c_33
  let main_v88 : IVec S_ 1 := andi main_v83 main_v87
  let main_v89 : FVec F S2048 .f32 := Host.absf main_arg18
  let main_cst_34 : FVec F S_ .f32 := constant S_ .f32 0x7F800000#32
  let main_v90 : FVec F S2048 .f32 := broadcastInDim S2048 ![] bcast_S_S2048 main_cst_34
  let main_v91 : IVec S2048 1 := cmpf .olt main_v89 main_v90
  let main_c_35 : IVec S_ 1 := constantI S_ 1 1#1
  let main_v92 : IVec S_ 1 := (fun x v => Host.reduce IntOp.andi x v reducesTo_S2048_S_d0 h_S_) main_v91 main_c_35
  let main_v93 : IVec S_ 1 := andi main_v88 main_v92
  main_v93

def fn_part4 {F : FTy → Type} [FloatOps F] (main_arg14 : FVec F S2048 .f32) (main_arg15 : FVec F S2048x2048 .f32) (main_arg16 : FVec F S2048 .f32) (main_arg17 : FVec F S2048x2048 .f32) (main_arg18 : FVec F S2048 .f32) (main_v63 : IVec S_ 1) (main_v67 : IVec S_ 1) : IVec S_ 1 :=
  let main_v68 : IVec S_ 1 := andi main_v63 main_v67
  let main_v69 : FVec F S2048 .f32 := Host.absf main_arg14
  let main_cst_26 : FVec F S_ .f32 := constant S_ .f32 0x7F800000#32
  let main_v70 : FVec F S2048 .f32 := broadcastInDim S2048 ![] bcast_S_S2048 main_cst_26
  let main_v71 : IVec S2048 1 := cmpf .olt main_v69 main_v70
  let main_c_27 : IVec S_ 1 := constantI S_ 1 1#1
  let main_v72 : IVec S_ 1 := (fun x v => Host.reduce IntOp.andi x v reducesTo_S2048_S_d0 h_S_) main_v71 main_c_27
  let main_v73 : IVec S_ 1 := andi main_v68 main_v72
  let main_v74 : FVec F S2048x2048 .f32 := Host.absf main_arg15
  let main_cst_28 : FVec F S_ .f32 := constant S_ .f32 0x7F800000#32
  let main_v75 : FVec F S2048x2048 .f32 := broadcastInDim S2048x2048 ![] bcast_S_S2048x2048 main_cst_28
  let main_v76 : IVec S2048x2048 1 := cmpf .olt main_v74 main_v75
  let main_c_29 : IVec S_ 1 := constantI S_ 1 1#1
  let main_v77 : IVec S_ 1 := (fun x v => Host.reduce IntOp.andi x v reducesTo_S2048x2048_S_d0_1 h_S_) main_v76 main_c_29
  let main_v78 : IVec S_ 1 := andi main_v73 main_v77
  let main_v79 : FVec F S2048 .f32 := Host.absf main_arg16
  let main_cst_30 : FVec F S_ .f32 := constant S_ .f32 0x7F800000#32
  let main_v80 : FVec F S2048 .f32 := broadcastInDim S2048 ![] bcast_S_S2048 main_cst_30
  let main_v81 : IVec S2048 1 := cmpf .olt main_v79 main_v80
  let main_c_31 : IVec S_ 1 := constantI S_ 1 1#1
  let main_v82 : IVec S_ 1 := (fun x v => Host.reduce IntOp.andi x v reducesTo_S2048_S_d0 h_S_) main_v81 main_c_31
  let main_v83 : IVec S_ 1 := andi main_v78 main_v82
  let main_v84 : FVec F S2048x2048 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S2048x2048 .f32) (main_arg12 : FVec F S2048 .f32) (main_arg13 : FVec F S2048x2048 .f32) (main_arg14 : FVec F S2048 .f32) (main_arg15 : FVec F S2048x2048 .f32) (main_arg16 : FVec F S2048 .f32) (main_arg17 : FVec F S2048x2048 .f32) (main_arg18 : FVec F S2048 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S2048x2048 .f32 := Host.absf main_arg11
  let main_cst_20 : FVec F S_ .f32 := constant S_ .f32 0x7F800000#32
  let main_v55 : FVec F S2048x2048 .f32 := broadcastInDim S2048x2048 ![] bcast_S_S2048x2048 main_cst_20
  let main_v56 : IVec S2048x2048 1 := cmpf .olt main_v54 main_v55
  let main_c_21 : IVec S_ 1 := constantI S_ 1 1#1
  let main_v57 : IVec S_ 1 := (fun x v => Host.reduce IntOp.andi x v reducesTo_S2048x2048_S_d0_1 h_S_) main_v56 main_c_21
  let main_v58 : IVec S_ 1 := andi main_v53 main_v57
  let main_v59 : FVec F S2048 .f32 := Host.absf main_arg12
  let main_cst_22 : FVec F S_ .f32 := constant S_ .f32 0x7F800000#32
  let main_v60 : FVec F S2048 .f32 := broadcastInDim S2048 ![] bcast_S_S2048 main_cst_22
  let main_v61 : IVec S2048 1 := cmpf .olt main_v59 main_v60
  let main_c_23 : IVec S_ 1 := constantI S_ 1 1#1
  let main_v62 : IVec S_ 1 := (fun x v => Host.reduce IntOp.andi x v reducesTo_S2048_S_d0 h_S_) main_v61 main_c_23
  let main_v63 : IVec S_ 1 := andi main_v58 main_v62
  let main_v64 : FVec F S2048x2048 .f32 := Host.absf main_arg13
  let main_cst_24 : FVec F S_ .f32 := constant S_ .f32 0x7F800000#32
  let main_v65 : FVec F S2048x2048 .f32 := broadcastInDim S2048x2048 ![] bcast_S_S2048x2048 main_cst_24
  let main_v66 : IVec S2048x2048 1 := cmpf .olt main_v64 main_v65
  let main_c_25 : IVec S_ 1 := constantI S_ 1 1#1
  let main_v67 : IVec S_ 1 := (fun x v => Host.reduce IntOp.andi x v reducesTo_S2048x2048_S_d0_1 h_S_) main_v66 main_c_25
  fn_part4 (F := F) main_arg14 main_arg15 main_arg16 main_arg17 main_arg18 main_v63 main_v67

def fn_part2 {F : FTy → Type} [FloatOps F] (main_arg7 : FVec F S2048x2048 .f32) (main_arg8 : FVec F S2048 .f32) (main_arg9 : FVec F S2048x2048 .f32) (main_arg10 : FVec F S2048 .f32) (main_arg11 : FVec F S2048x2048 .f32) (main_arg12 : FVec F S2048 .f32) (main_arg13 : FVec F S2048x2048 .f32) (main_arg14 : FVec F S2048 .f32) (main_arg15 : FVec F S2048x2048 .f32) (main_arg16 : FVec F S2048 .f32) (main_arg17 : FVec F S2048x2048 .f32) (main_arg18 : FVec F S2048 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048x2048 .f32 := Host.absf main_arg9
  let main_cst_16 : FVec F S_ .f32 := constant S_ .f32 0x7F800000#32
  let main_v45 : FVec F S2048x2048 .f32 := broadcastInDim S2048x2048 ![] bcast_S_S2048x2048 main_cst_16
  let main_v46 : IVec S2048x2048 1 := cmpf .olt main_v44 main_v45
  let main_c_17 : IVec S_ 1 := constantI S_ 1 1#1
  let main_v47 : IVec S_ 1 := (fun x v => Host.reduce IntOp.andi x v reducesTo_S2048x2048_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_arg11 main_arg12 main_arg13 main_arg14 main_arg15 main_arg16 main_arg17 main_arg18 main_v48 main_v49 main_v50

def fn_part1 {F : FTy → Type} [FloatOps F] (main_arg4 : FVec F S2048 .f32) (main_arg5 : FVec F S2048x2048 .f32) (main_arg6 : FVec F S2048 .f32) (main_arg7 : FVec F S2048x2048 .f32) (main_arg8 : FVec F S2048 .f32) (main_arg9 : FVec F S2048x2048 .f32) (main_arg10 : FVec F S2048 .f32) (main_arg11 : FVec F S2048x2048 .f32) (main_arg12 : FVec F S2048 .f32) (main_arg13 : FVec F S2048x2048 .f32) (main_arg14 : FVec F S2048 .f32) (main_arg15 : FVec F S2048x2048 .f32) (main_arg16 : FVec F S2048 .f32) (main_arg17 : FVec F S2048x2048 .f32) (main_arg18 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S4096x2048 .f32) (main_arg1 : FVec F S4096x2048 .f32) (main_arg2 : FVec F S4096x2048 .f32) (main_arg3 : FVec F S2048x2048 .f32) (main_arg4 : FVec F S2048 .f32) (main_arg5 : FVec F S2048x2048 .f32) (main_arg6 : FVec F S2048 .f32) (main_arg7 : FVec F S2048x2048 .f32) (main_arg8 : FVec F S2048 .f32) (main_arg9 : FVec F S2048x2048 .f32) (main_arg10 : FVec F S2048 .f32) (main_arg11 : FVec F S2048x2048 .f32) (main_arg12 : FVec F S2048 .f32) (main_arg13 : FVec F S2048x2048 .f32) (main_arg14 : FVec F S2048 .f32) (main_arg15 : FVec F S2048x2048 .f32) (main_arg16 : FVec F S2048 .f32) (main_arg17 : FVec F S2048x2048 .f32) (main_arg18 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512x512 : Shape := ⟨2, ![512, 512]⟩
abbrev S1x512 : Shape := ⟨2, ![1, 512]⟩
abbrev S2048x512 : Shape := ⟨2, ![2048, 512]⟩
abbrev S1x4096x2048 : Shape := ⟨3, ![1, 4096, 2048]⟩
abbrev S2x4096x2048 : Shape := ⟨3, ![2, 4096, 2048]⟩

abbrev nBuf : Space → Nat
  | .hbm => 42
  | .vmem => 42
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S2048x2048, .f32⟩
  | .hbm, ⟨10, _⟩ => ⟨S2048, .f32⟩
  | .hbm, ⟨11, _⟩ => ⟨S2048x2048, .f32⟩
  | .hbm, ⟨12, _⟩ => ⟨S2048, .f32⟩
  | .hbm, ⟨13, _⟩ => ⟨S2048x2048, .f32⟩
  | .hbm, ⟨14, _⟩ => ⟨S2048, .f32⟩
  | .hbm, ⟨15, _⟩ => ⟨S2048x2048, .f32⟩
  | .hbm, ⟨16, _⟩ => ⟨S2048, .f32⟩
  | .hbm, ⟨17, _⟩ => ⟨S2048x2048, .f32⟩
  | .hbm, ⟨18, _⟩ => ⟨S2048, .f32⟩
  | .hbm, ⟨19, _⟩ => ⟨S4096x2048, .bf16⟩
  | .hbm, ⟨20, _⟩ => ⟨S4096x2048, .bf16⟩
  | .hbm, ⟨21, _⟩ => ⟨S2048x2048, .bf16⟩
  | .hbm, ⟨22, _⟩ => ⟨S2048x2048, .bf16⟩
  | .hbm, ⟨23, _⟩ => ⟨S2048x2048, .bf16⟩
  | .hbm, ⟨24, _⟩ => ⟨S2048x2048, .bf16⟩
  | .hbm, ⟨25, _⟩ => ⟨S2048x2048, .bf16⟩
  | .hbm, ⟨26, _⟩ => ⟨S2048x2048, .bf16⟩
  | .hbm, ⟨27, _⟩ => ⟨S2048x2048, .bf16⟩
  | .hbm, ⟨28, _⟩ => ⟨S2048x2048, .bf16⟩
  | .hbm, ⟨29, _⟩ => ⟨S1x2048, .f32⟩
  | .hbm, ⟨30, _⟩ => ⟨S1x2048, .f32⟩
  | .hbm, ⟨31, _⟩ => ⟨S1x2048, .f32⟩
  | .hbm, ⟨32, _⟩ => ⟨S1x2048, .f32⟩
  | .hbm, ⟨33, _⟩ => ⟨S1x2048, .f32⟩
  | .hbm, ⟨34, _⟩ => ⟨S1x2048, .f32⟩
  | .hbm, ⟨35, _⟩ => ⟨S1x2048, .f32⟩
  | .hbm, ⟨36, _⟩ => ⟨S1x2048, .f32⟩
  | .hbm, ⟨37, _⟩ => ⟨S4096x2048, .f32⟩
  | .hbm, ⟨38, _⟩ => ⟨S4096x2048, .f32⟩
  | .hbm, ⟨39, _⟩ => ⟨S1x4096x2048, .f32⟩
  | .hbm, ⟨40, _⟩ => ⟨S1x4096x2048, .f32⟩
  | .hbm, ⟨41, _⟩ => ⟨S2x4096x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x512, .f32⟩
  | .local _ .vmem, ⟨5, _⟩ => ⟨S512x512, .f32⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .bf16⟩
  | .local _ .vmem, ⟨11, _⟩ => ⟨S512x2048, .bf16⟩
  | .local _ .vmem, ⟨12, _⟩ => ⟨S512x2048, .bf16⟩
  | .local _ .vmem, ⟨13, _⟩ => ⟨S512x2048, .bf16⟩
  | .local _ .vmem, ⟨14, _⟩ => ⟨S512x2048, .bf16⟩
  | .local _ .vmem, ⟨15, _⟩ => ⟨S512x2048, .bf16⟩
  | .local _ .vmem, ⟨16, _⟩ => ⟨S512x2048, .bf16⟩
  | .local _ .vmem, ⟨17, _⟩ => ⟨S512x2048, .bf16⟩
  | .local _ .vmem, ⟨18, _⟩ => ⟨S512x2048, .bf16⟩
  | .local _ .vmem, ⟨19, _⟩ => ⟨S512x2048, .bf16⟩
  | .local _ .vmem, ⟨20, _⟩ => ⟨S512x2048, .bf16⟩
  | .local _ .vmem, ⟨21, _⟩ => ⟨S512x2048, .bf16⟩
  | .local _ .vmem, ⟨22, _⟩ => ⟨S1x512, .f32⟩
  | .local _ .vmem, ⟨23, _⟩ => ⟨S1x512, .f32⟩
  | .local _ .vmem, ⟨24, _⟩ => ⟨S1x512, .f32⟩
  | .local _ .vmem, ⟨25, _⟩ => ⟨S1x512, .f32⟩
  | .local _ .vmem, ⟨26, _⟩ => ⟨S1x512, .f32⟩
  | .local _ .vmem, ⟨27, _⟩ => ⟨S1x512, .f32⟩
  | .local _ .vmem, ⟨28, _⟩ => ⟨S1x512, .f32⟩
  | .local _ .vmem, ⟨29, _⟩ => ⟨S1x512, .f32⟩
  | .local _ .vmem, ⟨30, _⟩ => ⟨S1x512, .f32⟩
  | .local _ .vmem, ⟨31, _⟩ => ⟨S1x512, .f32⟩
  | .local _ .vmem, ⟨32, _⟩ => ⟨S1x512, .f32⟩
  | .local _ .vmem, ⟨33, _⟩ => ⟨S1x512, .f32⟩
  | .local _ .vmem, ⟨34, _⟩ => ⟨S1x512, .f32⟩
  | .local _ .vmem, ⟨35, _⟩ => ⟨S1x512, .f32⟩
  | .local _ .vmem, ⟨36, _⟩ => ⟨S1x512, .f32⟩
  | .local _ .vmem, ⟨37, _⟩ => ⟨S1x512, .f32⟩
  | .local _ .vmem, ⟨38, _⟩ => ⟨S512x512, .f32⟩
  | .local _ .vmem, ⟨39, _⟩ => ⟨S512x512, .f32⟩
  | .local _ .vmem, ⟨40, _⟩ => ⟨S512x512, .f32⟩
  | .local _ .vmem, ⟨41, _⟩ => ⟨S512x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18_0 : Ref sig .tc := ⟨.hbm, 37, rfl⟩
abbrev main_v18_1 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S1x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]

abbrev stage0_19 : Fin 2 → Memref sig .tc .vmem S512x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S512x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

class Facts₀ : Prop where
  bitsLt_bf16_f32 : FTy.bits .bf16 < FTy.bits .f32
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x512_S512x512_0_0 : ∀ a, (![0, 0] : Fin 2 → Nat) a + S512x512.size a ≤ S512x512.size a
  h_S512x512 : 0 < S512x512.numel
  transposes_S512x2048_p1_0_S2048x512 : S512x2048.Transposes [1, 0] S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  bcast_S4096x2048_S1x4096x2048_1_2 : S4096x2048.BroadcastsInDim S1x4096x2048 (![1, 2] : Fin 2 → Fin S1x4096x2048.rank)
  concatenates_S1x4096x2048_S1x4096x2048_S2x4096x2048_d0 : Shape.Concatenates [S1x4096x2048, S1x4096x2048] S2x4096x2048 0
  dot_S512x2048_S2048x512_S512x512_1_0_0_1_n_n_wf : DotDims.WF S512x2048 S2048x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .bf16 = 32 ∨ (Rect.block (s := S4096x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x2048.size a
  hwx0_1 : ∀ i : grid0.Coords, EltTy.bits .bf16 = 32 ∨ (Rect.block (s := S4096x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x2048.size a
  hwx0_2 : ∀ i : grid0.Coords, EltTy.bits .f32 = 32 ∨ (Rect.block (s := S4096x2048) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S2048x2048.size a
  hwx0_3 : ∀ i : grid0.Coords, EltTy.bits .bf16 = 32 ∨ (Rect.block (s := S2048x2048) S512x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S2048x2048.size a
  hwx0_4 : ∀ i : grid0.Coords, EltTy.bits .bf16 = 32 ∨ (Rect.block (s := S2048x2048) S512x2048.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S2048x2048.size a
  hwx0_5 : ∀ i : grid0.Coords, EltTy.bits .bf16 = 32 ∨ (Rect.block (s := S2048x2048) S512x2048.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x2048.size a ≤ S2048x2048.size a
  hwx0_6 : ∀ i : grid0.Coords, EltTy.bits .bf16 = 32 ∨ (Rect.block (s := S2048x2048) S512x2048.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x2048.size a ≤ S2048x2048.size a
  hwx0_7 : ∀ i : grid0.Coords, EltTy.bits .bf16 = 32 ∨ (Rect.block (s := S2048x2048) S512x2048.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x2048.size a ≤ S2048x2048.size a
  hwx0_8 : ∀ i : grid0.Coords, EltTy.bits .bf16 = 32 ∨ (Rect.block (s := S2048x2048) S512x2048.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x2048.size a ≤ S2048x2048.size a
  hwx0_9 : ∀ i : grid0.Coords, EltTy.bits .bf16 = 32 ∨ (Rect.block (s := S2048x2048) S512x2048.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x2048.size a ≤ S2048x2048.size a
  hwx0_10 : ∀ i : grid0.Coords, EltTy.bits .bf16 = 32 ∨ (Rect.block (s := S2048x2048) S512x2048.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x512.size a ≤ S1x2048.size a
  hwx0_11 : ∀ i : grid0.Coords, EltTy.bits .f32 = 32 ∨ (Rect.block (s := S1x2048) S1x512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x512.size a ≤ S1x2048.size a
  hwx0_12 : ∀ i : grid0.Coords, EltTy.bits .f32 = 32 ∨ (Rect.block (s := S1x2048) S1x512.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x512.size a ≤ S1x2048.size a
  hwx0_13 : ∀ i : grid0.Coords, EltTy.bits .f32 = 32 ∨ (Rect.block (s := S1x2048) S1x512.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x512.size a ≤ S1x2048.size a
  hwx0_14 : ∀ i : grid0.Coords, EltTy.bits .f32 = 32 ∨ (Rect.block (s := S1x2048) S1x512.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1x512.size a ≤ S1x2048.size a
  hwx0_15 : ∀ i : grid0.Coords, EltTy.bits .f32 = 32 ∨ (Rect.block (s := S1x2048) S1x512.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1x512.size a ≤ S1x2048.size a
  hwx0_16 : ∀ i : grid0.Coords, EltTy.bits .f32 = 32 ∨ (Rect.block (s := S1x2048) S1x512.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S1x512.size a ≤ S1x2048.size a
  hwx0_17 : ∀ i : grid0.Coords, EltTy.bits .f32 = 32 ∨ (Rect.block (s := S1x2048) S1x512.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S1x512.size a ≤ S1x2048.size a
  hwx0_18 : ∀ i : grid0.Coords, EltTy.bits .f32 = 32 ∨ (Rect.block (s := S1x2048) S1x512.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S512x512.size a ≤ S4096x2048.size a
  hwx0_19 : ∀ i : grid0.Coords, EltTy.bits .f32 = 32 ∨ (Rect.block (s := S4096x2048) S512x512.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S512x512.size a ≤ S4096x2048.size a
  hwx0_20 : ∀ i : grid0.Coords, EltTy.bits .f32 = 32 ∨ (Rect.block (s := S4096x2048) S512x512.size (cc0_transform_20 i) (hinb0_20 i)).WholeWords (EltTy.packing .f32)

variable [Facts₀]

def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S512x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5) S512x2048.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6) S512x2048.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v7) S512x2048.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v8) S512x2048.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v9) S512x2048.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v10) S1x512.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v11) S1x512.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v12) S1x512.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_v13) S1x512.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_v14) S1x512.size cc0_transform_15 reads0_15 false false 2 stage0_15 sem0_15
    hrank0 hreads0_15 hinb0_15 nbuf0_15 (Memref.isWhole_whole _) hwx0_15 hstage0_15

abbrev win0_16 : Pipeline.Window sig grid0 :=
  Pipeline.Window.ofSpec (Memref.whole main_v15) S1x512.size cc0_transform_16 reads0_16 false false 2 stage0_16 sem0_16
    hrank0 hreads0_16 hinb0_16 nbuf0_16 (Memref.isWhole_whole _) hwx0_16 hstage0_16

abbrev win0_17 : Pipeline.Window sig grid0 :=
  Pipeline.Window.ofSpec (Memref.whole main_v16) S1x512.size cc0_transform_17 reads0_17 false false 2 stage0_17 sem0_17
    hrank0 hreads0_17 hinb0_17 nbuf0_17 (Memref.isWhole_whole _) hwx0_17 hstage0_17

abbrev win0_18 : Pipeline.Window sig grid0 :=
  Pipeline.Window.ofSpec (Memref.whole main_v17) S1x512.size cc0_transform_18 reads0_18 false false 2 stage0_18 sem0_18
    hrank0 hreads0_18 hinb0_18 nbuf0_18 (Memref.isWhole_whole _) hwx0_18 hstage0_18

abbrev win0_19 : Pipeline.Window sig grid0 :=
  Pipeline.Window.ofSpec (Memref.whole main_v18_0) S512x512.size cc0_transform_19 reads0_19 true false 2 stage0_19 sem0_19
    hrank0 hreads0_19 hinb0_19 nbuf0_19 (Memref.isWhole_whole _) hwx0_19 hstage0_19

abbrev win0_20 : Pipeline.Window sig grid0 :=
  Pipeline.Window.ofSpec (Memref.whole main_v18_1) S512x512.size cc0_transform_20 reads0_20 true false 2 stage0_20 sem0_20
    hrank0 hreads0_20 hinb0_20 nbuf0_20 (Memref.isWhole_whole _) hwx0_20 hstage0_20

abbrev win0 : Fin 21 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | ⟨_ + 21, h⟩ => absurd h (Nat.not_lt.2 (Nat.le_add_left _ _))
abbrev spec0 : Fin 21 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S2048x2048 : Shape := ⟨2, ![2048, 2048]⟩
abbrev S2048 : Shape := ⟨1, ![2048]⟩
abbrev S8192x2048 : Shape := ⟨2, ![8192, 2048]⟩
abbrev S8192 : Shape := ⟨1, ![8192]⟩
abbrev S2048x8192 : Shape := ⟨2, ![2048, 8192]⟩
abbrev S4096x8192 : Shape := ⟨2, ![4096, 8192]⟩
abbrev S1x8192 : Shape := ⟨2, ![1, 8192]⟩
abbrev S_ : Shape := ⟨0, ![]⟩
abbrev S1x4096x2048 : Shape := ⟨3, ![1, 4096, 2048]⟩
abbrev S2x4096x2048 : Shape := ⟨3, ![2, 4096, 2048]⟩

abbrev nBuf : Space → Nat
  | .hbm => 71
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S2048x2048, .f32⟩
  | .hbm, ⟨10, _⟩ => ⟨S2048, .f32⟩
  | .hbm, ⟨11, _⟩ => ⟨S2048x2048, .f32⟩
  | .hbm, ⟨12, _⟩ => ⟨S2048, .f32⟩
  | .hbm, ⟨13, _⟩ => ⟨S2048x2048, .f32⟩
  | .hbm, ⟨14, _⟩ => ⟨S2048, .f32⟩
  | .hbm, ⟨15, _⟩ => ⟨S2048x2048, .f32⟩
  | .hbm, ⟨16, _⟩ => ⟨S2048, .f32⟩
  | .hbm, ⟨17, _⟩ => ⟨S2048x2048, .f32⟩
  | .hbm, ⟨18, _⟩ => ⟨S2048, .f32⟩
  | .hbm, ⟨19, _⟩ => ⟨S8192x2048, .f32⟩
  | .hbm, ⟨20, _⟩ => ⟨S8192x2048, .f32⟩
  | .hbm, ⟨21, _⟩ => ⟨S8192, .f32⟩
  | .hbm, ⟨22, _⟩ => ⟨S8192, .f32⟩
  | .hbm, ⟨23, _⟩ => ⟨S2048x8192, .f32⟩
  | .hbm, ⟨24, _⟩ => ⟨S4096x8192, .f32⟩
  | .hbm, ⟨25, _⟩ => ⟨S2048x8192, .f32⟩
  | .hbm, ⟨26, _⟩ => ⟨S4096x8192, .f32⟩
  | .hbm, ⟨27, _⟩ => ⟨S4096x8192, .f32⟩
  | .hbm, ⟨28, _⟩ => ⟨S1x8192, .f32⟩
  | .hbm, ⟨29, _⟩ => ⟨S4096x8192, .f32⟩
  | .hbm, ⟨30, _⟩ => ⟨S4096x8192, .f32⟩
  | .hbm, ⟨31, _⟩ => ⟨S1x8192, .f32⟩
  | .hbm, ⟨32, _⟩ => ⟨S4096x8192, .f32⟩
  | .hbm, ⟨33, _⟩ => ⟨S4096x8192, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S_, .f32⟩
  | .hbm, ⟨41, _⟩ => ⟨S4096x2048, .f32⟩
  | .hbm, ⟨42, _⟩ => ⟨S4096x2048, .f32⟩
  | .hbm, ⟨43, _⟩ => ⟨S_, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S_, .f32⟩
  | .hbm, ⟨49, _⟩ => ⟨S4096x2048, .f32⟩
  | .hbm, ⟨50, _⟩ => ⟨S4096x2048, .f32⟩
  | .hbm, ⟨51, _⟩ => ⟨S_, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S4096x2048, .f32⟩
  | .hbm, ⟨57, _⟩ => ⟨S_, .f32⟩
  | .hbm, ⟨58, _⟩ => ⟨S4096x2048, .f32⟩
  | .hbm, ⟨59, _⟩ => ⟨S4096x2048, .f32⟩
  | .hbm, ⟨60, _⟩ => ⟨S_, .f32⟩
  | .hbm, ⟨61, _⟩ => ⟨S4096x2048, .f32⟩
  | .hbm, ⟨62, _⟩ => ⟨S4096x2048, .f32⟩
  | .hbm, ⟨63, _⟩ => ⟨S4096x2048, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S1x4096x2048, .f32⟩
  | .hbm, ⟨69, _⟩ => ⟨S1x4096x2048, .f32⟩
  | .hbm, ⟨70, _⟩ => ⟨S2x4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst : Ref sig .tc := ⟨.hbm, 40, rfl⟩
abbrev main_v21 : Ref sig .tc := ⟨.hbm, 41, rfl⟩
abbrev main_v22 : Ref sig .tc := ⟨.hbm, 42, rfl⟩
abbrev main_cst_0 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_1 : Ref sig .tc := ⟨.hbm, 48, rfl⟩
abbrev main_v27 : Ref sig .tc := ⟨.hbm, 49, rfl⟩
abbrev main_v28 : Ref sig .tc := ⟨.hbm, 50, rfl⟩
abbrev main_cst_2 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_3 : Ref sig .tc := ⟨.hbm, 57, rfl⟩
abbrev main_v34 : Ref sig .tc := ⟨.hbm, 58, rfl⟩
abbrev main_v35 : Ref sig .tc := ⟨.hbm, 59, rfl⟩
abbrev main_cst_4 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩

abbrev nD : Nat := 1
abbrev τ : Topo := Topo.v7x

variable {F : FTy → Type} [FloatOps F]

class Facts₀ : Prop where
  concatenates_S2048x2048_S2048x2048_S2048x2048_S2048x2048_S8192x2048_d0 : Shape.Concatenates [S2048x2048, S2048x2048, S2048x2048, S2048x2048] S8192x2048 0
  concatenates_S2048_S2048_S2048_S2048_S8192_d0 : Shape.Concatenates [S2048, S2048, S2048, S2048] S8192 0
  transposes_S8192x2048_S2048x8192_1_0 : S8192x2048.Transposes [1, 0] S2048x8192
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  slices_S4096x8192_S4096x2048_0_0 : S4096x8192.Slices ![0, 0] S4096x2048
  slices_S4096x8192_S4096x2048_0_2048 : S4096x8192.Slices ![0, 2048] S4096x2048
  slices_S4096x8192_S4096x2048_0_4096 : S4096x8192.Slices ![0, 4096] S4096x2048
  slices_S4096x8192_S4096x2048_0_6144 : S4096x8192.Slices ![0, 6144] S4096x2048
  bcast_S_S4096x2048 : S_.BroadcastsInDim S4096x2048 (![] : Fin 0 → Fin S4096x2048.rank)
  bcast_S4096x2048_S1x4096x2048_1_2 : S4096x2048.BroadcastsInDim S1x4096x2048 (![1, 2] : Fin 2 → Fin S1x4096x2048.rank)
  concatenates_S1x4096x2048_S1x4096x2048_S2x4096x2048_d0 : Shape.Concatenates [S1x4096x2048, S1x4096x2048] S2x4096x2048 0
  dot_S4096x2048_S2048x8192_S4096x8192_1_0_0_1_n_n_wf : DotDims.WF S4096x2048 S2048x8192 S4096x8192 [1] [0] [0] [1] [] []

variable [Facts₀]

def dot_S4096x2048_S2048x8192_S4096x8192_1_0_0_1_n_n : DotDims S4096x2048 S2048x8192 S4096x8192 where
  lhsContracting := [1]
  rhsContracting := [0]
  lhsNonContracting := [0]
  rhsNonContracting := [1]
  lhsBatch := []
  rhsBatch := []
  wf := dot_S4096x2048_S2048x8192_S4096x8192_1_0_0_1_n_n_wf

class Facts : Prop extends Facts₀ where

variable [Facts]
-- ==== Proof.LibDot2.lean ====
/-
  A matrix product at the ideal instance, read at an entry.

  For two rank-2 operands of shapes [M, K] and [K, N] whose dimension numbers contract the left operand's second
  axis with the right operand's first, the product into a zero accumulator is, at row `p` and column `j`, the
  plain sum over `a : Fin K` of `l (p, a) * r (a, j)` on the extended reals. The dimension numbers enter only
  through four coordinate facts (which coordinate of each operand is the output's and which is the contracted
  one); a caller proves those four for its own record and gets the sum.
-/
import Idealize.ShloMosaic.Lib.ValueIdx
import Idealize.ShloMosaic.PureOps.Ideal.Laws

noncomputable section

namespace Cert.Lib.Dot2

open Idealize.ShloMosaic Idealize.ShloMosaic.ValueIdx

/-- The contraction sum of a rank-2 by rank-2 product, re-indexed from the record's one-axis contraction index to
    `Fin K`: the left operand is read along row `p`, the right along column `j`. -/
theorem contraction_ix2 {M K N : Nat} (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : (⟨2, ![M, K]⟩ : Shape).Idx → EReal) (r : (⟨2, ![K, N]⟩ : Shape).Idx → EReal) (p : Fin M) (j : Fin N) :
    ∑ k : D.contr.Idx, l (D.lhsIdx (ix2 p j) k) * r (D.rhsIdx (ix2 p j) k) = ∑ a : Fin K, l (ix2 p a) * r (ix2 a j) := by
  rw [← Equiv.sum_comp (contrEquiv1 D K hr hs).symm]
  refine Finset.sum_congr rfl fun a _ => ?_
  have hk := contrEquiv1_symm_val D K hr hs a
  have el : D.lhsIdx (ix2 p j) ((contrEquiv1 D K hr hs).symm a) = ix2 p a := funext fun d => Fin.ext (by
    match d with
    | ⟨0, _⟩ => exact hl0 _ _
    | ⟨1, _⟩ => exact (hl1 _ _).trans hk)
  have er : D.rhsIdx (ix2 p j) ((contrEquiv1 D K hr hs).symm a) = ix2 a j := funext fun d => Fin.ext (by
    match d with
    | ⟨0, _⟩ => exact (hr0 _ _).trans hk
    | ⟨1, _⟩ => exact hr1 _ _)
  rw [el, er]

/-- A kernel's matrix product into the zero accumulator, at the ideal instance, read at `(p, j)`. -/
theorem matmul_zero_ix2 {M K N : Nat} {φ₁ φ₂ : FTy} (D : DotDims ⟨2, ![M, K]⟩ ⟨2, ![K, N]⟩ ⟨2, ![M, N]⟩)
    (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : FVec Ideal ⟨2, ![M, K]⟩ φ₁) (r : FVec Ideal ⟨2, ![K, N]⟩ φ₂) (p : Fin M) (j : Fin N) :
    matmul D prec l r (constant (F := Ideal) ⟨2, ![M, N]⟩ .f32 0x00000000#32) (ix2 p j)
      = ∑ a : Fin K, l (ix2 p a) * r (ix2 a j) := by
  show FloatOps.matmul D prec l r (constant (F := Ideal) ⟨2, ![M, N]⟩ .f32 0x00000000#32) (ix2 p j) = _
  rw [Ideal.matmul_constant_zero_apply]
  exact contraction_ix2 D hr hs hl0 hl1 hr0 hr1 l r p j

end Cert.Lib.Dot2

end
-- ==== Proof.KernelGate.lean ====
/-
  The kernel body's arithmetic, read at one entry of its output blocks.

  At a grid point the body holds a [512, 2048] block of `x` and of `h`, a [512, 512] block of `c`, and per gate a
  [512, 2048] block of each weight matrix and a [1, 512] block of each bias. A gate's pre-activation at row `p` and
  column `q` of the block is
      ((Σ_a x(p, a) · Wi(q, a) + Σ_a h(p, a) · Wh(q, a)) + bi(0, q)) + bh(0, q):
  each matrix product is taken with the TRANSPOSED weight block into a zero accumulator, so its entry is the plain sum
  over the 2048 shared columns; each bias row is broadcast down the 512 rows. The two stored blocks are then
      c' = σ(z_f) · c + σ(z_i) · tanh(z_g)      and      h' = σ(z_o) · tanh(c').
  The shape casts in the body are between equal shapes, hence the identity.
-/
import proofs.«114114_j17480516895199_1_alg».proof.Proof.Gen.KernelIdeal.Skeleton
import proofs.«114114_j17480516895199_1_alg».proof.Proof.LibDot2
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-! ## The matrix product's dimension record, coordinate by coordinate

The left operand's axis 0 is the result's row and its axis 1 is contracted; the right operand's axis 0 is contracted and
its axis 1 is the result's column. -/

theorem lhs_axis0 (i : S512x512.Idx) (q : dot_S512x2048_S2048x512_S512x512_1_0_0_1_n_n.contr.Idx) :
    (dot_S512x2048_S2048x512_S512x512_1_0_0_1_n_n.lhsIdx i q 0).val = (i 0).val := by
  unfold DotDims.lhsIdx
  rw [dif_neg (show ¬(0 : Fin S512x2048.rank) ∈ dot_S512x2048_S2048x512_S512x512_1_0_0_1_n_n.lhsBatch by decide), dif_pos (show (0 : Fin S512x2048.rank) ∈ dot_S512x2048_S2048x512_S512x512_1_0_0_1_n_n.lhsNonContracting by decide)]
  rfl
theorem lhs_axis1 (i : S512x512.Idx) (q : dot_S512x2048_S2048x512_S512x512_1_0_0_1_n_n.contr.Idx) :
    (dot_S512x2048_S2048x512_S512x512_1_0_0_1_n_n.lhsIdx i q 1).val = (q ⟨0, by decide⟩).val :=
  dot_S512x2048_S2048x512_S512x512_1_0_0_1_n_n.lhsIdx_val_of_single rfl i q
theorem rhs_axis0 (i : S512x512.Idx) (q : dot_S512x2048_S2048x512_S512x512_1_0_0_1_n_n.contr.Idx) :
    (dot_S512x2048_S2048x512_S512x512_1_0_0_1_n_n.rhsIdx i q 0).val = (q ⟨0, by decide⟩).val :=
  dot_S512x2048_S2048x512_S512x512_1_0_0_1_n_n.rhsIdx_val_of_single rfl i q
theorem rhs_axis1 (i : S512x512.Idx) (q : dot_S512x2048_S2048x512_S512x512_1_0_0_1_n_n.contr.Idx) :
    (dot_S512x2048_S2048x512_S512x512_1_0_0_1_n_n.rhsIdx i q 1).val = (i 1).val := by
  unfold DotDims.rhsIdx
  rw [dif_neg (show ¬(1 : Fin S2048x512.rank) ∈ dot_S512x2048_S2048x512_S512x512_1_0_0_1_n_n.rhsBatch by decide), dif_pos (show (1 : Fin S2048x512.rank) ∈ dot_S512x2048_S2048x512_S512x512_1_0_0_1_n_n.rhsNonContracting by decide)]
  rfl

/-- A block's product with a transposed weight block, into the zero accumulator: entry `(p, q)` is the sum over the
    shared columns of the block's row `p` against the weight block's ROW `q`. -/
theorem prod_transposed_apply (x W : FVec Ideal S512x2048 .bf16) (p q : Fin 512) :
    matmul dot_S512x2048_S2048x512_S512x512_1_0_0_1_n_n none x (transpose S2048x512 [1, 0] W transposes_S512x2048_p1_0_S2048x512)
        (constant (F := Ideal) S512x512 .f32 0x00000000#32) (ix2 p q)
      = ∑ a : Fin 2048, x (ix2 p a) * W (ix2 q a) := by
  refine (Cert.Lib.Dot2.matmul_zero_ix2 dot_S512x2048_S2048x512_S512x512_1_0_0_1_n_n none rfl rfl lhs_axis0 lhs_axis1 rhs_axis0 rhs_axis1 x
    (transpose S2048x512 [1, 0] W transposes_S512x2048_p1_0_S2048x512) p q).trans ?_
  refine Finset.sum_congr rfl fun a _ => ?_
  rw [transpose_ix2_apply W transposes_S512x2048_p1_0_S2048x512 a q]

/-- A bias row broadcast down the block's rows. -/
theorem bias_row_apply (v : FVec Ideal S1x512 .f32) (p q : Fin 512) :
    broadcastTo S512x512 v broadcasts_S1x512_S512x512 (ix2 p q) = v (ix2 (0 : Fin 1) q) :=
  broadcastTo_1b_ab_apply v broadcasts_S1x512_S512x512 p q

/-! ## A gate's pre-activation in block coordinates -/

/-- The pre-activation at row `p`, column `q` of the block, from the `x` and `h` blocks, the gate's two weight blocks
    and its two bias rows. -/
def zblk (x h Wi Wh : FVec Ideal S512x2048 .bf16) (bi bh : FVec Ideal S1x512 .f32) (p q : Fin 512) : EReal :=
  (((∑ a : Fin 2048, x (ix2 p a) * Wi (ix2 q a)) + (∑ a : Fin 2048, h (ix2 p a) * Wh (ix2 q a))) + bi (ix2 (0 : Fin 1) q))
    + bh (ix2 (0 : Fin 1) q)

/-- The two products added, before the biases. -/
def zprod (x h Wi Wh : FVec Ideal S512x2048 .bf16) (p q : Fin 512) : EReal :=
  (∑ a : Fin 2048, x (ix2 p a) * Wi (ix2 q a)) + (∑ a : Fin 2048, h (ix2 p a) * Wh (ix2 q a))

theorem zblk_eq (x h Wi Wh : FVec Ideal S512x2048 .bf16) (bi bh : FVec Ideal S1x512 .f32) (p q : Fin 512) :
    zblk x h Wi Wh bi bh p q = (zprod x h Wi Wh p q + bi (ix2 (0 : Fin 1) q)) + bh (ix2 (0 : Fin 1) q) := rfl

/-! ## The payloads as vectors, their identity casts removed -/

theorem pay3_eq (v0 : FVec Ideal S512x2048 .bf16) : k0_pay3 (F := Ideal) v0 = v0 := by
  unfold k0_pay3; exact shapeCast_self v0 _
theorem pay4_eq (v2 : FVec Ideal S512x2048 .bf16) : k0_pay4 (F := Ideal) v2 = v2 := by
  unfold k0_pay4; exact shapeCast_self v2 _

/-- The input gate's pre-activation (products and both biases). -/
theorem pay5_apply (v0 v2 v5 v7 : FVec Ideal S512x2048 .bf16) (v14 v18 : FVec Ideal S1x512 .f32) (p q : Fin 512) :
    k0_pay5 (F := Ideal) v0 v2 v5 v7 v14 v18 (ix2 p q) = zblk v0 v2 v5 v7 v14 v18 p q := by
  unfold k0_pay5
  simp only [pay3_eq, pay4_eq, shapeCast_self]
  show ((_ + _) + _) + _ = _
  rw [prod_transposed_apply, prod_transposed_apply, bias_row_apply, bias_row_apply]
  rfl

/-- The forget gate's two products, before its biases. -/
theorem pay6_apply (v0 v2 v22 v24 : FVec Ideal S512x2048 .bf16) (p q : Fin 512) :
    k0_pay6 (F := Ideal) v0 v2 v22 v24 (ix2 p q) = zprod v0 v2 v22 v24 p q := by
  unfold k0_pay6
  simp only [pay3_eq, pay4_eq, shapeCast_self]
  show _ + _ = _
  rw [prod_transposed_apply, prod_transposed_apply]
  rfl

/-- A bias row on its own. -/
theorem pay7_apply (v31 : FVec Ideal S1x512 .f32) (p q : Fin 512) :
    k0_pay7 (F := Ideal) v31 (ix2 p q) = v31 (ix2 (0 : Fin 1) q) := by
  unfold k0_pay7
  simp only [shapeCast_self]
  exact bias_row_apply v31 p q
theorem pay11_apply (v69 : FVec Ideal S1x512 .f32) (p q : Fin 512) :
    k0_pay11 (F := Ideal) v69 (ix2 p q) = v69 (ix2 (0 : Fin 1) q) := by
  unfold k0_pay11
  simp only [shapeCast_self]
  exact bias_row_apply v69 p q

/-- The forget gate's pre-activation from its products, its first bias already broadcast, and its second bias row. -/
theorem pay8_apply (v30 v33 : FVec Ideal S512x512 .f32) (v35 : FVec Ideal S1x512 .f32) (p q : Fin 512) :
    k0_pay8 (F := Ideal) v30 v33 v35 (ix2 p q) = (v30 (ix2 p q) + v33 (ix2 p q)) + v35 (ix2 (0 : Fin 1) q) := by
  unfold k0_pay8
  simp only [shapeCast_self]
  show (_ + _) + _ = _
  rw [bias_row_apply]

/-- The cell gate's pre-activation. -/
theorem pay9_apply (v1 v3 v39 v41 : FVec Ideal S512x2048 .bf16) (v48 v52 : FVec Ideal S1x512 .f32) (p q : Fin 512) :
    k0_pay9 (F := Ideal) v1 v3 v39 v41 v48 v52 (ix2 p q) = zblk v1 v3 v39 v41 v48 v52 p q := by
  unfold k0_pay9
  simp only [shapeCast_self]
  show ((_ + _) + _) + _ = _
  rw [prod_transposed_apply, prod_transposed_apply, bias_row_apply, bias_row_apply]
  rfl

/-- The output gate's pre-activation short of its second bias. -/
theorem pay10_apply (v1 v3 v56 v58 : FVec Ideal S512x2048 .bf16) (v65 : FVec Ideal S1x512 .f32) (p q : Fin 512) :
    k0_pay10 (F := Ideal) v1 v3 v56 v58 v65 (ix2 p q) = zprod v1 v3 v56 v58 p q + v65 (ix2 (0 : Fin 1) q) := by
  unfold k0_pay10
  simp only [shapeCast_self]
  show (_ + _) + _ = _
  rw [prod_transposed_apply, prod_transposed_apply, bias_row_apply]
  rfl

/-- The new cell state from the three pre-activations it needs and the `c` block. -/
theorem pay1_apply (v4 v21 v38 v55 : FVec Ideal S512x512 .f32) (i : S512x512.Idx) :
    k0_pay1 (F := Ideal) v4 v21 v38 v55 i
      = Ideal.logistic (v38 i) * v4 i + Ideal.logistic (v21 i) * Ideal.tanh (v55 i) := rfl

/-- The new hidden state from the new cell state and the output gate's pre-activation in its two summands. -/
theorem pay2_apply (v4 v21 v38 v55 v68 v71 : FVec Ideal S512x512 .f32) (i : S512x512.Idx) :
    k0_pay2 (F := Ideal) v4 v21 v38 v55 v68 v71 i
      = Ideal.logistic (v68 i + v71 i) * Ideal.tanh (k0_pay1 (F := Ideal) v4 v21 v38 v55 i) := rfl

end Cert.KernelIdeal.Body

end
-- ==== Proof.KernelOut.lean ====
/-
  What one grid point stores, as functions of the nineteen input blocks.

  With the blocks numbered as the kernel's operands are (0: x, 1: h, 2: c, 3 to 6: the input-side weight blocks of the
  input, forget, cell and output gates, 7 to 10: their hidden-side weight blocks, 11 to 14: the input-side bias rows,
  15 to 18: the hidden-side bias rows), each of the two output blocks is written by ONE store that covers it, so the
  block afterwards IS that store's payload. Entry `(p, q)` of the second output block is the new cell state
      σ(z_f) · c(p, q) + σ(z_i) · tanh(z_g),
  and entry `(p, q)` of the first is the new hidden state σ(z_o) · tanh of that, each `z` the gate's pre-activation
  `zblk` of the blocks.
-/
import proofs.«114114_j17480516895199_1_alg».proof.Proof.Gen.KernelIdeal.Frame
import proofs.«114114_j17480516895199_1_alg».proof.Proof.KernelGate

noncomputable section

namespace Cert.KernelIdeal.Body

open Cert.KernelIdeal Cert.KernelIdeal.Gen Idealize.ShloMosaic Idealize.ShloMosaic.ValueIdx

/-- The offset of every access of the body is the origin. -/
theorem origin2 : (![0, 0] : Fin 2 → Nat) = fun _ => 0 := funext fun a => by fin_cases a <;> rfl

/-- The new cell state at entry `(p, q)` of the block. -/
def cblk (x0 x1 : FVec Ideal S512x2048 .bf16) (x2 : FVec Ideal S512x512 .f32) (x3 x4 x5 x6 x7 x8 x9 x10 : FVec Ideal S512x2048 .bf16) (x11 x12 x13 x14 x15 x16 x17 x18 : FVec Ideal S1x512 .f32) (p q : Fin 512) : EReal :=
  Ideal.logistic (zblk x0 x1 x4 x8 x12 x16 p q) * x2 (ix2 p q)
    + Ideal.logistic (zblk x0 x1 x3 x7 x11 x15 p q) * Ideal.tanh (zblk x0 x1 x5 x9 x13 x17 p q)

/-- The new hidden state at entry `(p, q)` of the block. -/
def hblk (x0 x1 : FVec Ideal S512x2048 .bf16) (x2 : FVec Ideal S512x512 .f32) (x3 x4 x5 x6 x7 x8 x9 x10 : FVec Ideal S512x2048 .bf16) (x11 x12 x13 x14 x15 x16 x17 x18 : FVec Ideal S1x512 .f32) (p q : Fin 512) : EReal :=
  Ideal.logistic (zblk x0 x1 x6 x10 x14 x18 p q) * Ideal.tanh (cblk x0 x1 x2 x3 x4 x5 x6 x7 x8 x9 x10 x11 x12 x13 x14 x15 x16 x17 x18 p q)

/-- The second output block after the body holds the new cell state. -/
theorem out0_20_apply (x0 x1 : FVec Ideal S512x2048 .bf16) (x2 : FVec Ideal S512x512 .f32) (x3 x4 x5 x6 x7 x8 x9 x10 : FVec Ideal S512x2048 .bf16) (x11 x12 x13 x14 x15 x16 x17 x18 : FVec Ideal S1x512 .f32) (p q : Fin 512) :
    out0_20 (F := Ideal) x0 x1 x2 x3 x4 x5 x6 x7 x8 x9 x10 x11 x12 x13 x14 x15 x16 x17 x18 (ix2 p q) = cblk x0 x1 x2 x3 x4 x5 x6 x7 x8 x9 x10 x11 x12 x13 x14 x15 x16 x17 x18 p q := by
  unfold out0_20
  rw [View.canon_unit_zero origin2]
  simp only [View.ld_unit_zero (S := S512x2048) origin2, View.ld_unit_zero (S := S512x512) origin2, View.ld_unit_zero (S := S1x512) origin2]
  rw [pay1_apply, pay8_apply, pay6_apply, pay7_apply, pay5_apply, pay9_apply, pay3_eq, pay4_eq]
  rfl

/-- The first output block after the body holds the new hidden state. -/
theorem out0_19_apply (x0 x1 : FVec Ideal S512x2048 .bf16) (x2 : FVec Ideal S512x512 .f32) (x3 x4 x5 x6 x7 x8 x9 x10 : FVec Ideal S512x2048 .bf16) (x11 x12 x13 x14 x15 x16 x17 x18 : FVec Ideal S1x512 .f32) (p q : Fin 512) :
    out0_19 (F := Ideal) x0 x1 x2 x3 x4 x5 x6 x7 x8 x9 x10 x11 x12 x13 x14 x15 x16 x17 x18 (ix2 p q) = hblk x0 x1 x2 x3 x4 x5 x6 x7 x8 x9 x10 x11 x12 x13 x14 x15 x16 x17 x18 p q := by
  unfold out0_19
  rw [View.canon_unit_zero origin2]
  simp only [View.ld_unit_zero (S := S512x2048) origin2, View.ld_unit_zero (S := S512x512) origin2, View.ld_unit_zero (S := S1x512) origin2]
  rw [pay2_apply, pay1_apply, pay8_apply, pay6_apply, pay7_apply, pay5_apply, pay9_apply, pay10_apply, pay11_apply, pay3_eq, pay4_eq]
  rfl

end Cert.KernelIdeal.Body

end
-- ==== Proof.Spec.lean ====
/-
  The LSTM cell as one function of its nineteen arguments, on the extended reals.

  For a batch row `b` and a hidden unit `j`, each of the four gates has the pre-activation
      z(b, j) = ((Σ_a x(b, a) · Wi(j, a) + Σ_a h(b, a) · Wh(j, a)) + bi(j)) + bh(j),
  an input projection and a hidden projection (both against the weight matrices' ROWS, i.e. the product with the
  transposed matrix), then the two biases, added in that order. With σ the logistic function,
      c'(b, j) = σ(z_f) · c(b, j) + σ(z_i) · tanh(z_g),        h'(b, j) = σ(z_o) · tanh(c'(b, j)),
  and the result stacks h' (plane 0) over c' (plane 1).

  Nothing here depends on a program: both the kernel's value and the reference's are shown equal to `out`.
-/
import Idealize.ShloMosaic.Lib.ValueIdx
import Idealize.ShloMosaic.PureOps.Ideal

noncomputable section

namespace Cert.Lstm

open Idealize.ShloMosaic Idealize.ShloMosaic.ValueIdx

/-- Activations `[4096, 2048]`, weight matrices `[2048, 2048]`, biases `[2048]`, the stacked result `[2, 4096, 2048]`. -/
abbrev SAct : Shape := ⟨2, ![4096, 2048]⟩
abbrev SW : Shape := ⟨2, ![2048, 2048]⟩
abbrev SB : Shape := ⟨1, ![2048]⟩
abbrev SOut : Shape := ⟨3, ![2, 4096, 2048]⟩

/-- The nineteen argument arrays: the input `x`, the previous hidden and cell states `h`, `c`, and per gate
    (input, forget, cell, output) an input-side and a hidden-side weight matrix and bias. -/
structure Args where
  x : FVec Ideal SAct .f32
  h : FVec Ideal SAct .f32
  c : FVec Ideal SAct .f32
  Wxi : FVec Ideal SW .f32
  bxi : FVec Ideal SB .f32
  Whi : FVec Ideal SW .f32
  bhi : FVec Ideal SB .f32
  Wxf : FVec Ideal SW .f32
  bxf : FVec Ideal SB .f32
  Whf : FVec Ideal SW .f32
  bhf : FVec Ideal SB .f32
  Wxg : FVec Ideal SW .f32
  bxg : FVec Ideal SB .f32
  Whg : FVec Ideal SW .f32
  bhg : FVec Ideal SB .f32
  Wxo : FVec Ideal SW .f32
  bxo : FVec Ideal SB .f32
  Who : FVec Ideal SW .f32
  bho : FVec Ideal SB .f32

/-- A gate's pre-activation at batch row `b` and hidden unit `j`. -/
def gate (x h : FVec Ideal SAct .f32) (Wi Wh : FVec Ideal SW .f32) (bi bh : FVec Ideal SB .f32)
    (b : Fin 4096) (j : Fin 2048) : EReal :=
  (((∑ a : Fin 2048, x (ix2 b a) * Wi (ix2 j a)) + (∑ a : Fin 2048, h (ix2 b a) * Wh (ix2 j a))) + bi (ix1 j)) + bh (ix1 j)

def zi (A : Args) (b : Fin 4096) (j : Fin 2048) : EReal := gate A.x A.h A.Wxi A.Whi A.bxi A.bhi b j
def zf (A : Args) (b : Fin 4096) (j : Fin 2048) : EReal := gate A.x A.h A.Wxf A.Whf A.bxf A.bhf b j
def zg (A : Args) (b : Fin 4096) (j : Fin 2048) : EReal := gate A.x A.h A.Wxg A.Whg A.bxg A.bhg b j
def zo (A : Args) (b : Fin 4096) (j : Fin 2048) : EReal := gate A.x A.h A.Wxo A.Who A.bxo A.bho b j

/-- The new cell state. -/
def cNew (A : Args) (b : Fin 4096) (j : Fin 2048) : EReal :=
  Ideal.logistic (zf A b j) * A.c (ix2 b j) + Ideal.logistic (zi A b j) * Ideal.tanh (zg A b j)

/-- The new hidden state. -/
def hNew (A : Args) (b : Fin 4096) (j : Fin 2048) : EReal :=
  Ideal.logistic (zo A b j) * Ideal.tanh (cNew A b j)

/-- The two planes as whole arrays. -/
def hArr (A : Args) : FVec Ideal SAct .f32 := fun i => hNew A (i 0) (i 1)
def cArr (A : Args) : FVec Ideal SAct .f32 := fun i => cNew A (i 0) (i 1)

theorem hArr_ix2 (A : Args) (b : Fin 4096) (j : Fin 2048) : hArr A (ix2 b j) = hNew A b j := rfl
theorem cArr_ix2 (A : Args) (b : Fin 4096) (j : Fin 2048) : cArr A (ix2 b j) = cNew A b j := rfl

/-- The stacked result: plane 0 is the new hidden state, plane 1 the new cell state. -/
def out (A : Args) : FVec Ideal SOut .f32 := fun i =>
  if (i 0).val = 0 then hNew A (i 1) (i 2) else cNew A (i 1) (i 2)

theorem out_plane0 (A : Args) (b : Fin 4096) (j : Fin 2048) : out A (ix3 (0 : Fin 2) b j) = hNew A b j := rfl
theorem out_plane1 (A : Args) (b : Fin 4096) (j : Fin 2048) : out A (ix3 (1 : Fin 2) b j) = cNew A b j := rfl

end Cert.Lstm

end
-- ==== Proof.KernelBlocks.lean ====
/-
  Each input block at a grid point, read off the argument arrays.

  The grid has 4 × 8 points `(u, v)`: `u` picks a band of 512 hidden units, `v` a band of 512 batch rows. At a point the
  output blocks and the `c` block sit at block index `(v, u)`, the `x` and `h` blocks at `(v, 0)`, every weight block at
  `(u, 0)` and every bias block at `(0, u)`. So with `rowOf t p` = 512 v + p and `colOf t q` = 512 u + q,
    • the `x` (or `h`) block's entry `(p, a)` is `x (rowOf t p, a)`,
    • a weight block's entry `(q, a)` is `W (colOf t q, a)` — row `colOf t q` of the matrix,
    • a bias block's entry `(0, q)` is `b (colOf t q)`,
    • the `c` block's entry `(p, q)` is `c (rowOf t p, colOf t q)`.
  Before the kernel runs, the host narrows `x`, `h` and the eight weight matrices to a shorter float format, which on
  the extended reals is the identity, and views each bias vector as one row, which keeps entry `j` at `(0, j)`.
-/
import proofs.«114114_j17480516895199_1_alg».proof.Proof.Gen.KernelIdeal.Frame
import proofs.«114114_j17480516895199_1_alg».proof.Proof.KernelOut
import proofs.«114114_j17480516895199_1_alg».proof.Proof.Spec
import Idealize.ShloMosaic.Lib.Pipeline.Value
import Idealize.ShloMosaic.Lib.ValueLayout
import Idealize.ShloMosaic.Lib.StableHlo.Run

set_option maxRecDepth 16384

noncomputable section

namespace Cert.KernelIdeal.Blocks

open Cert.KernelIdeal Cert.KernelIdeal.Gen Cert.KernelIdeal.Body
open Idealize.ShloMosaic Idealize.ShloMosaic.ValueIdx Idealize.ShloMosaic.TcCoe Idealize.SL.Sem
open Idealize.ShloMosaic.Pipeline (Dat Cfg Window)

variable (m : (ℓ : Loc nD τ sig) → Buf (Elt Ideal) ℓ)

/-- The nineteen argument arrays as launched on core `c`. -/
def argsOf (c : Dev nD) : Cert.Lstm.Args :=
  ⟨m ((c.tc : Thread nD τ).loc main_arg0), m ((c.tc : Thread nD τ).loc main_arg1), m ((c.tc : Thread nD τ).loc main_arg2),
   m ((c.tc : Thread nD τ).loc main_arg3), m ((c.tc : Thread nD τ).loc main_arg4), m ((c.tc : Thread nD τ).loc main_arg5),
   m ((c.tc : Thread nD τ).loc main_arg6), m ((c.tc : Thread nD τ).loc main_arg7), m ((c.tc : Thread nD τ).loc main_arg8),
   m ((c.tc : Thread nD τ).loc main_arg9), m ((c.tc : Thread nD τ).loc main_arg10), m ((c.tc : Thread nD τ).loc main_arg11),
   m ((c.tc : Thread nD τ).loc main_arg12), m ((c.tc : Thread nD τ).loc main_arg13), m ((c.tc : Thread nD τ).loc main_arg14),
   m ((c.tc : Thread nD τ).loc main_arg15), m ((c.tc : Thread nD τ).loc main_arg16), m ((c.tc : Thread nD τ).loc main_arg17),
   m ((c.tc : Thread nD τ).loc main_arg18)⟩

/-! ## The arrays as the kernel finds them -/

theorem V_x (c : Dev nD) : (V m c main_v0 : S4096x2048.Idx → EReal) = (argsOf m c).x := by
  show StableHlo.after hostOps0 (fun b => m (c, b)) (Proc.devRef .tc main_v0) = _
  after_results
  rfl
theorem V_h (c : Dev nD) : (V m c main_v1 : S4096x2048.Idx → EReal) = (argsOf m c).h := by
  show StableHlo.after hostOps0 (fun b => m (c, b)) (Proc.devRef .tc main_v1) = _
  after_results
  rfl
theorem V_c (c : Dev nD) : (V m c main_arg2 : S4096x2048.Idx → EReal) = (argsOf m c).c := V_main_arg2 m c
theorem V_Wxi (c : Dev nD) : (V m c main_v2 : S2048x2048.Idx → EReal) = (argsOf m c).Wxi := by
  show StableHlo.after hostOps0 (fun b => m (c, b)) (Proc.devRef .tc main_v2) = _
  after_results
  rfl
theorem V_Wxf (c : Dev nD) : (V m c main_v3 : S2048x2048.Idx → EReal) = (argsOf m c).Wxf := by
  show StableHlo.after hostOps0 (fun b => m (c, b)) (Proc.devRef .tc main_v3) = _
  after_results
  rfl
theorem V_Wxg (c : Dev nD) : (V m c main_v4 : S2048x2048.Idx → EReal) = (argsOf m c).Wxg := by
  show StableHlo.after hostOps0 (fun b => m (c, b)) (Proc.devRef .tc main_v4) = _
  after_results
  rfl
theorem V_Wxo (c : Dev nD) : (V m c main_v5 : S2048x2048.Idx → EReal) = (argsOf m c).Wxo := by
  show StableHlo.after hostOps0 (fun b => m (c, b)) (Proc.devRef .tc main_v5) = _
  after_results
  rfl
theorem V_Whi (c : Dev nD) : (V m c main_v6 : S2048x2048.Idx → EReal) = (argsOf m c).Whi := by
  show StableHlo.after hostOps0 (fun b => m (c, b)) (Proc.devRef .tc main_v6) = _
  after_results
  rfl
theorem V_Whf (c : Dev nD) : (V m c main_v7 : S2048x2048.Idx → EReal) = (argsOf m c).Whf := by
  show StableHlo.after hostOps0 (fun b => m (c, b)) (Proc.devRef .tc main_v7) = _
  after_results
  rfl
theorem V_Whg (c : Dev nD) : (V m c main_v8 : S2048x2048.Idx → EReal) = (argsOf m c).Whg := by
  show StableHlo.after hostOps0 (fun b => m (c, b)) (Proc.devRef .tc main_v8) = _
  after_results
  rfl
theorem V_Who (c : Dev nD) : (V m c main_v9 : S2048x2048.Idx → EReal) = (argsOf m c).Who := by
  show StableHlo.after hostOps0 (fun b => m (c, b)) (Proc.devRef .tc main_v9) = _
  after_results
  rfl

/-- A bias vector viewed as one row keeps entry `j` at `(0, j)`. -/
theorem V_bxi (c : Dev nD) (j : Fin 2048) : (V m c main_v10 : S1x2048.Idx → EReal) (ix2 (0 : Fin 1) j) = (argsOf m c).bxi (ix1 j) := by
  have e : (V m c main_v10 : S1x2048.Idx → EReal) = shapeCast S1x2048 (m ((c.tc : Thread nD τ).loc main_arg4)) shapeCasts_S2048_S1x2048 := by
    show StableHlo.after hostOps0 (fun b => m (c, b)) (Proc.devRef .tc main_v10) = _
    after_results
    rfl
  rw [e]; exact shapeCast_a_1a_apply _ _ 0 j
theorem V_bxf (c : Dev nD) (j : Fin 2048) : (V m c main_v11 : S1x2048.Idx → EReal) (ix2 (0 : Fin 1) j) = (argsOf m c).bxf (ix1 j) := by
  have e : (V m c main_v11 : S1x2048.Idx → EReal) = shapeCast S1x2048 (m ((c.tc : Thread nD τ).loc main_arg8)) shapeCasts_S2048_S1x2048 := by
    show StableHlo.after hostOps0 (fun b => m (c, b)) (Proc.devRef .tc main_v11) = _
    after_results
    rfl
  rw [e]; exact shapeCast_a_1a_apply _ _ 0 j
theorem V_bxg (c : Dev nD) (j : Fin 2048) : (V m c main_v12 : S1x2048.Idx → EReal) (ix2 (0 : Fin 1) j) = (argsOf m c).bxg (ix1 j) := by
  have e : (V m c main_v12 : S1x2048.Idx → EReal) = shapeCast S1x2048 (m ((c.tc : Thread nD τ).loc main_arg12)) shapeCasts_S2048_S1x2048 := by
    show StableHlo.after hostOps0 (fun b => m (c, b)) (Proc.devRef .tc main_v12) = _
    after_results
    rfl
  rw [e]; exact shapeCast_a_1a_apply _ _ 0 j
theorem V_bxo (c : Dev nD) (j : Fin 2048) : (V m c main_v13 : S1x2048.Idx → EReal) (ix2 (0 : Fin 1) j) = (argsOf m c).bxo (ix1 j) := by
  have e : (V m c main_v13 : S1x2048.Idx → EReal) = shapeCast S1x2048 (m ((c.tc : Thread nD τ).loc main_arg16)) shapeCasts_S2048_S1x2048 := by
    show StableHlo.after hostOps0 (fun b => m (c, b)) (Proc.devRef .tc main_v13) = _
    after_results
    rfl
  rw [e]; exact shapeCast_a_1a_apply _ _ 0 j
theorem V_bhi (c : Dev nD) (j : Fin 2048) : (V m c main_v14 : S1x2048.Idx → EReal) (ix2 (0 : Fin 1) j) = (argsOf m c).bhi (ix1 j) := by
  have e : (V m c main_v14 : S1x2048.Idx → EReal) = shapeCast S1x2048 (m ((c.tc : Thread nD τ).loc main_arg6)) shapeCasts_S2048_S1x2048 := by
    show StableHlo.after hostOps0 (fun b => m (c, b)) (Proc.devRef .tc main_v14) = _
    after_results
    rfl
  rw [e]; exact shapeCast_a_1a_apply _ _ 0 j
theorem V_bhf (c : Dev nD) (j : Fin 2048) : (V m c main_v15 : S1x2048.Idx → EReal) (ix2 (0 : Fin 1) j) = (argsOf m c).bhf (ix1 j) := by
  have e : (V m c main_v15 : S1x2048.Idx → EReal) = shapeCast S1x2048 (m ((c.tc : Thread nD τ).loc main_arg10)) shapeCasts_S2048_S1x2048 := by
    show StableHlo.after hostOps0 (fun b => m (c, b)) (Proc.devRef .tc main_v15) = _
    after_results
    rfl
  rw [e]; exact shapeCast_a_1a_apply _ _ 0 j
theorem V_bhg (c : Dev nD) (j : Fin 2048) : (V m c main_v16 : S1x2048.Idx → EReal) (ix2 (0 : Fin 1) j) = (argsOf m c).bhg (ix1 j) := by
  have e : (V m c main_v16 : S1x2048.Idx → EReal) = shapeCast S1x2048 (m ((c.tc : Thread nD τ).loc main_arg14)) shapeCasts_S2048_S1x2048 := by
    show StableHlo.after hostOps0 (fun b => m (c, b)) (Proc.devRef .tc main_v16) = _
    after_results
    rfl
  rw [e]; exact shapeCast_a_1a_apply _ _ 0 j
theorem V_bho (c : Dev nD) (j : Fin 2048) : (V m c main_v17 : S1x2048.Idx → EReal) (ix2 (0 : Fin 1) j) = (argsOf m c).bho (ix1 j) := by
  have e : (V m c main_v17 : S1x2048.Idx → EReal) = shapeCast S1x2048 (m ((c.tc : Thread nD τ).loc main_arg18)) shapeCasts_S2048_S1x2048 := by
    show StableHlo.after hostOps0 (fun b => m (c, b)) (Proc.devRef .tc main_v17) = _
    after_results
    rfl
  rw [e]; exact shapeCast_a_1a_apply _ _ 0 j

/-! ## Rows and columns of the whole arrays from a point and block coordinates -/

/-- The output's block index stays inside the 8 × 4 blocks of the array. -/
theorem out_idx_le : ∀ t : Fin cfg0.N, win0_19.index t (0 : Fin 2) ≤ 7 ∧ win0_19.index t (1 : Fin 2) ≤ 3 :=
  (by decide +kernel : ∀ t : Fin grid0.N, _)

/-- The batch row of block row `p` at point `t`. -/
def rowOf (t : Fin cfg0.N) (p : Fin 512) : Fin 4096 :=
  ⟨win0_19.index t (0 : Fin 2) * 512 + p.val, by have := (out_idx_le t).1; have := p.isLt; omega⟩
/-- The hidden unit of block column `q` at point `t`. -/
def colOf (t : Fin cfg0.N) (q : Fin 512) : Fin 2048 :=
  ⟨win0_19.index t (1 : Fin 2) * 512 + q.val, by have := (out_idx_le t).2; have := q.isLt; omega⟩

/-! ## The nineteen block reads -/

theorem read_x (c : Dev nD) (t : Fin cfg0.N) (p : Fin 512) (a : Fin 2048) :
    iblk m c 0 t (ix2 p a) = (argsOf m c).x (ix2 (rowOf t p) a) := by
  obtain ⟨e0, e1⟩ := (by decide +kernel : ∀ t : Fin grid0.N, win0_0.index t (0 : Fin 2) = win0_19.index t (0 : Fin 2) ∧ win0_0.index t (1 : Fin 2) = 0) t
  show V m c main_v0 (((cfg0.win 0).blk t).view.emb (ix2 p a)) = _
  rw [show ((cfg0.win 0).blk t).view.emb (ix2 p a) = ix2 (rowOf t p) a from funext fun d => Fin.ext (by
    match d with
    | ⟨0, _⟩ => show win0_0.index t (0 : Fin 2) * 512 + 1 * p.val = win0_19.index t (0 : Fin 2) * 512 + p.val; omega
    | ⟨1, _⟩ => show win0_0.index t (1 : Fin 2) * 2048 + 1 * a.val = a.val; omega)]
  exact congrFun (V_x m c) _

theorem read_h (c : Dev nD) (t : Fin cfg0.N) (p : Fin 512) (a : Fin 2048) :
    iblk m c 1 t (ix2 p a) = (argsOf m c).h (ix2 (rowOf t p) a) := by
  obtain ⟨e0, e1⟩ := (by decide +kernel : ∀ t : Fin grid0.N, win0_1.index t (0 : Fin 2) = win0_19.index t (0 : Fin 2) ∧ win0_1.index t (1 : Fin 2) = 0) t
  show V m c main_v1 (((cfg0.win 1).blk t).view.emb (ix2 p a)) = _
  rw [show ((cfg0.win 1).blk t).view.emb (ix2 p a) = ix2 (rowOf t p) a from funext fun d => Fin.ext (by
    match d with
    | ⟨0, _⟩ => show win0_1.index t (0 : Fin 2) * 512 + 1 * p.val = win0_19.index t (0 : Fin 2) * 512 + p.val; omega
    | ⟨1, _⟩ => show win0_1.index t (1 : Fin 2) * 2048 + 1 * a.val = a.val; omega)]
  exact congrFun (V_h m c) _

theorem read_c (c : Dev nD) (t : Fin cfg0.N) (p q : Fin 512) :
    iblk m c 2 t (ix2 p q) = (argsOf m c).c (ix2 (rowOf t p) (colOf t q)) := by
  obtain ⟨e0, e1⟩ := (by decide +kernel : ∀ t : Fin grid0.N, win0_2.index t (0 : Fin 2) = win0_19.index t (0 : Fin 2) ∧ win0_2.index t (1 : Fin 2) = win0_19.index t (1 : Fin 2)) t
  show V m c main_arg2 (((cfg0.win 2).blk t).view.emb (ix2 p q)) = _
  rw [show ((cfg0.win 2).blk t).view.emb (ix2 p q) = ix2 (rowOf t p) (colOf t q) from funext fun d => Fin.ext (by
    match d with
    | ⟨0, _⟩ => show win0_2.index t (0 : Fin 2) * 512 + 1 * p.val = win0_19.index t (0 : Fin 2) * 512 + p.val; omega
    | ⟨1, _⟩ => show win0_2.index t (1 : Fin 2) * 512 + 1 * q.val = win0_19.index t (1 : Fin 2) * 512 + q.val; omega)]
  exact congrFun (V_c m c) _

theorem read_Wxi (c : Dev nD) (t : Fin cfg0.N) (q : Fin 512) (a : Fin 2048) :
    iblk m c 3 t (ix2 q a) = (argsOf m c).Wxi (ix2 (colOf t q) a) := by
  obtain ⟨e0, e1⟩ := (by decide +kernel : ∀ t : Fin grid0.N, win0_3.index t (0 : Fin 2) = win0_19.index t (1 : Fin 2) ∧ win0_3.index t (1 : Fin 2) = 0) t
  show V m c main_v2 (((cfg0.win 3).blk t).view.emb (ix2 q a)) = _
  rw [show ((cfg0.win 3).blk t).view.emb (ix2 q a) = ix2 (colOf t q) a from funext fun d => Fin.ext (by
    match d with
    | ⟨0, _⟩ => show win0_3.index t (0 : Fin 2) * 512 + 1 * q.val = win0_19.index t (1 : Fin 2) * 512 + q.val; omega
    | ⟨1, _⟩ => show win0_3.index t (1 : Fin 2) * 2048 + 1 * a.val = a.val; omega)]
  exact congrFun (V_Wxi m c) _

theorem read_Wxf (c : Dev nD) (t : Fin cfg0.N) (q : Fin 512) (a : Fin 2048) :
    iblk m c 4 t (ix2 q a) = (argsOf m c).Wxf (ix2 (colOf t q) a) := by
  obtain ⟨e0, e1⟩ := (by decide +kernel : ∀ t : Fin grid0.N, win0_4.index t (0 : Fin 2) = win0_19.index t (1 : Fin 2) ∧ win0_4.index t (1 : Fin 2) = 0) t
  show V m c main_v3 (((cfg0.win 4).blk t).view.emb (ix2 q a)) = _
  rw [show ((cfg0.win 4).blk t).view.emb (ix2 q a) = ix2 (colOf t q) a from funext fun d => Fin.ext (by
    match d with
    | ⟨0, _⟩ => show win0_4.index t (0 : Fin 2) * 512 + 1 * q.val = win0_19.index t (1 : Fin 2) * 512 + q.val; omega
    | ⟨1, _⟩ => show win0_4.index t (1 : Fin 2) * 2048 + 1 * a.val = a.val; omega)]
  exact congrFun (V_Wxf m c) _

theorem read_Wxg (c : Dev nD) (t : Fin cfg0.N) (q : Fin 512) (a : Fin 2048) :
    iblk m c 5 t (ix2 q a) = (argsOf m c).Wxg (ix2 (colOf t q) a) := by
  obtain ⟨e0, e1⟩ := (by decide +kernel : ∀ t : Fin grid0.N, win0_5.index t (0 : Fin 2) = win0_19.index t (1 : Fin 2) ∧ win0_5.index t (1 : Fin 2) = 0) t
  show V m c main_v4 (((cfg0.win 5).blk t).view.emb (ix2 q a)) = _
  rw [show ((cfg0.win 5).blk t).view.emb (ix2 q a) = ix2 (colOf t q) a from funext fun d => Fin.ext (by
    match d with
    | ⟨0, _⟩ => show win0_5.index t (0 : Fin 2) * 512 + 1 * q.val = win0_19.index t (1 : Fin 2) * 512 + q.val; omega
    | ⟨1, _⟩ => show win0_5.index t (1 : Fin 2) * 2048 + 1 * a.val = a.val; omega)]
  exact congrFun (V_Wxg m c) _

theorem read_Wxo (c : Dev nD) (t : Fin cfg0.N) (q : Fin 512) (a : Fin 2048) :
    iblk m c 6 t (ix2 q a) = (argsOf m c).Wxo (ix2 (colOf t q) a) := by
  obtain ⟨e0, e1⟩ := (by decide +kernel : ∀ t : Fin grid0.N, win0_6.index t (0 : Fin 2) = win0_19.index t (1 : Fin 2) ∧ win0_6.index t (1 : Fin 2) = 0) t
  show V m c main_v5 (((cfg0.win 6).blk t).view.emb (ix2 q a)) = _
  rw [show ((cfg0.win 6).blk t).view.emb (ix2 q a) = ix2 (colOf t q) a from funext fun d => Fin.ext (by
    match d with
    | ⟨0, _⟩ => show win0_6.index t (0 : Fin 2) * 512 + 1 * q.val = win0_19.index t (1 : Fin 2) * 512 + q.val; omega
    | ⟨1, _⟩ => show win0_6.index t (1 : Fin 2) * 2048 + 1 * a.val = a.val; omega)]
  exact congrFun (V_Wxo m c) _

theorem read_Whi (c : Dev nD) (t : Fin cfg0.N) (q : Fin 512) (a : Fin 2048) :
    iblk m c 7 t (ix2 q a) = (argsOf m c).Whi (ix2 (colOf t q) a) := by
  obtain ⟨e0, e1⟩ := (by decide +kernel : ∀ t : Fin grid0.N, win0_7.index t (0 : Fin 2) = win0_19.index t (1 : Fin 2) ∧ win0_7.index t (1 : Fin 2) = 0) t
  show V m c main_v6 (((cfg0.win 7).blk t).view.emb (ix2 q a)) = _
  rw [show ((cfg0.win 7).blk t).view.emb (ix2 q a) = ix2 (colOf t q) a from funext fun d => Fin.ext (by
    match d with
    | ⟨0, _⟩ => show win0_7.index t (0 : Fin 2) * 512 + 1 * q.val = win0_19.index t (1 : Fin 2) * 512 + q.val; omega
    | ⟨1, _⟩ => show win0_7.index t (1 : Fin 2) * 2048 + 1 * a.val = a.val; omega)]
  exact congrFun (V_Whi m c) _

theorem read_Whf (c : Dev nD) (t : Fin cfg0.N) (q : Fin 512) (a : Fin 2048) :
    iblk m c 8 t (ix2 q a) = (argsOf m c).Whf (ix2 (colOf t q) a) := by
  obtain ⟨e0, e1⟩ := (by decide +kernel : ∀ t : Fin grid0.N, win0_8.index t (0 : Fin 2) = win0_19.index t (1 : Fin 2) ∧ win0_8.index t (1 : Fin 2) = 0) t
  show V m c main_v7 (((cfg0.win 8).blk t).view.emb (ix2 q a)) = _
  rw [show ((cfg0.win 8).blk t).view.emb (ix2 q a) = ix2 (colOf t q) a from funext fun d => Fin.ext (by
    match d with
    | ⟨0, _⟩ => show win0_8.index t (0 : Fin 2) * 512 + 1 * q.val = win0_19.index t (1 : Fin 2) * 512 + q.val; omega
    | ⟨1, _⟩ => show win0_8.index t (1 : Fin 2) * 2048 + 1 * a.val = a.val; omega)]
  exact congrFun (V_Whf m c) _

theorem read_Whg (c : Dev nD) (t : Fin cfg0.N) (q : Fin 512) (a : Fin 2048) :
    iblk m c 9 t (ix2 q a) = (argsOf m c).Whg (ix2 (colOf t q) a) := by
  obtain ⟨e0, e1⟩ := (by decide +kernel : ∀ t : Fin grid0.N, win0_9.index t (0 : Fin 2) = win0_19.index t (1 : Fin 2) ∧ win0_9.index t (1 : Fin 2) = 0) t
  show V m c main_v8 (((cfg0.win 9).blk t).view.emb (ix2 q a)) = _
  rw [show ((cfg0.win 9).blk t).view.emb (ix2 q a) = ix2 (colOf t q) a from funext fun d => Fin.ext (by
    match d with
    | ⟨0, _⟩ => show win0_9.index t (0 : Fin 2) * 512 + 1 * q.val = win0_19.index t (1 : Fin 2) * 512 + q.val; omega
    | ⟨1, _⟩ => show win0_9.index t (1 : Fin 2) * 2048 + 1 * a.val = a.val; omega)]
  exact congrFun (V_Whg m c) _

theorem read_Who (c : Dev nD) (t : Fin cfg0.N) (q : Fin 512) (a : Fin 2048) :
    iblk m c 10 t (ix2 q a) = (argsOf m c).Who (ix2 (colOf t q) a) := by
  obtain ⟨e0, e1⟩ := (by decide +kernel : ∀ t : Fin grid0.N, win0_10.index t (0 : Fin 2) = win0_19.index t (1 : Fin 2) ∧ win0_10.index t (1 : Fin 2) = 0) t
  show V m c main_v9 (((cfg0.win 10).blk t).view.emb (ix2 q a)) = _
  rw [show ((cfg0.win 10).blk t).view.emb (ix2 q a) = ix2 (colOf t q) a from funext fun d => Fin.ext (by
    match d with
    | ⟨0, _⟩ => show win0_10.index t (0 : Fin 2) * 512 + 1 * q.val = win0_19.index t (1 : Fin 2) * 512 + q.val; omega
    | ⟨1, _⟩ => show win0_10.index t (1 : Fin 2) * 2048 + 1 * a.val = a.val; omega)]
  exact congrFun (V_Who m c) _

theorem read_bxi (c : Dev nD) (t : Fin cfg0.N) (q : Fin 512) :
    iblk m c 11 t (ix2 (0 : Fin 1) q) = (argsOf m c).bxi (ix1 (colOf t q)) := by
  obtain ⟨e0, e1⟩ := (by decide +kernel : ∀ t : Fin grid0.N, win0_11.index t (0 : Fin 2) = 0 ∧ win0_11.index t (1 : Fin 2) = win0_19.index t (1 : Fin 2)) t
  show V m c main_v10 (((cfg0.win 11).blk t).view.emb (ix2 (0 : Fin 1) q)) = _
  rw [show ((cfg0.win 11).blk t).view.emb (ix2 (0 : Fin 1) q) = ix2 (0 : Fin 1) (colOf t q) from funext fun d => Fin.ext (by
    match d with
    | ⟨0, _⟩ => show win0_11.index t (0 : Fin 2) * 1 + 1 * 0 = 0; omega
    | ⟨1, _⟩ => show win0_11.index t (1 : Fin 2) * 512 + 1 * q.val = win0_19.index t (1 : Fin 2) * 512 + q.val; omega)]
  exact V_bxi m c _

theorem read_bxf (c : Dev nD) (t : Fin cfg0.N) (q : Fin 512) :
    iblk m c 12 t (ix2 (0 : Fin 1) q) = (argsOf m c).bxf (ix1 (colOf t q)) := by
  obtain ⟨e0, e1⟩ := (by decide +kernel : ∀ t : Fin grid0.N, win0_12.index t (0 : Fin 2) = 0 ∧ win0_12.index t (1 : Fin 2) = win0_19.index t (1 : Fin 2)) t
  show V m c main_v11 (((cfg0.win 12).blk t).view.emb (ix2 (0 : Fin 1) q)) = _
  rw [show ((cfg0.win 12).blk t).view.emb (ix2 (0 : Fin 1) q) = ix2 (0 : Fin 1) (colOf t q) from funext fun d => Fin.ext (by
    match d with
    | ⟨0, _⟩ => show win0_12.index t (0 : Fin 2) * 1 + 1 * 0 = 0; omega
    | ⟨1, _⟩ => show win0_12.index t (1 : Fin 2) * 512 + 1 * q.val = win0_19.index t (1 : Fin 2) * 512 + q.val; omega)]
  exact V_bxf m c _

theorem read_bxg (c : Dev nD) (t : Fin cfg0.N) (q : Fin 512) :
    iblk m c 13 t (ix2 (0 : Fin 1) q) = (argsOf m c).bxg (ix1 (colOf t q)) := by
  obtain ⟨e0, e1⟩ := (by decide +kernel : ∀ t : Fin grid0.N, win0_13.index t (0 : Fin 2) = 0 ∧ win0_13.index t (1 : Fin 2) = win0_19.index t (1 : Fin 2)) t
  show V m c main_v12 (((cfg0.win 13).blk t).view.emb (ix2 (0 : Fin 1) q)) = _
  rw [show ((cfg0.win 13).blk t).view.emb (ix2 (0 : Fin 1) q) = ix2 (0 : Fin 1) (colOf t q) from funext fun d => Fin.ext (by
    match d with
    | ⟨0, _⟩ => show win0_13.index t (0 : Fin 2) * 1 + 1 * 0 = 0; omega
    | ⟨1, _⟩ => show win0_13.index t (1 : Fin 2) * 512 + 1 * q.val = win0_19.index t (1 : Fin 2) * 512 + q.val; omega)]
  exact V_bxg m c _

theorem read_bxo (c : Dev nD) (t : Fin cfg0.N) (q : Fin 512) :
    iblk m c 14 t (ix2 (0 : Fin 1) q) = (argsOf m c).bxo (ix1 (colOf t q)) := by
  obtain ⟨e0, e1⟩ := (by decide +kernel : ∀ t : Fin grid0.N, win0_14.index t (0 : Fin 2) = 0 ∧ win0_14.index t (1 : Fin 2) = win0_19.index t (1 : Fin 2)) t
  show V m c main_v13 (((cfg0.win 14).blk t).view.emb (ix2 (0 : Fin 1) q)) = _
  rw [show ((cfg0.win 14).blk t).view.emb (ix2 (0 : Fin 1) q) = ix2 (0 : Fin 1) (colOf t q) from funext fun d => Fin.ext (by
    match d with
    | ⟨0, _⟩ => show win0_14.index t (0 : Fin 2) * 1 + 1 * 0 = 0; omega
    | ⟨1, _⟩ => show win0_14.index t (1 : Fin 2) * 512 + 1 * q.val = win0_19.index t (1 : Fin 2) * 512 + q.val; omega)]
  exact V_bxo m c _

theorem read_bhi (c : Dev nD) (t : Fin cfg0.N) (q : Fin 512) :
    iblk m c 15 t (ix2 (0 : Fin 1) q) = (argsOf m c).bhi (ix1 (colOf t q)) := by
  obtain ⟨e0, e1⟩ := (by decide +kernel : ∀ t : Fin grid0.N, win0_15.index t (0 : Fin 2) = 0 ∧ win0_15.index t (1 : Fin 2) = win0_19.index t (1 : Fin 2)) t
  show V m c main_v14 (((cfg0.win 15).blk t).view.emb (ix2 (0 : Fin 1) q)) = _
  rw [show ((cfg0.win 15).blk t).view.emb (ix2 (0 : Fin 1) q) = ix2 (0 : Fin 1) (colOf t q) from funext fun d => Fin.ext (by
    match d with
    | ⟨0, _⟩ => show win0_15.index t (0 : Fin 2) * 1 + 1 * 0 = 0; omega
    | ⟨1, _⟩ => show win0_15.index t (1 : Fin 2) * 512 + 1 * q.val = win0_19.index t (1 : Fin 2) * 512 + q.val; omega)]
  exact V_bhi m c _

theorem read_bhf (c : Dev nD) (t : Fin cfg0.N) (q : Fin 512) :
    iblk m c 16 t (ix2 (0 : Fin 1) q) = (argsOf m c).bhf (ix1 (colOf t q)) := by
  obtain ⟨e0, e1⟩ := (by decide +kernel : ∀ t : Fin grid0.N, win0_16.index t (0 : Fin 2) = 0 ∧ win0_16.index t (1 : Fin 2) = win0_19.index t (1 : Fin 2)) t
  show V m c main_v15 (((cfg0.win 16).blk t).view.emb (ix2 (0 : Fin 1) q)) = _
  rw [show ((cfg0.win 16).blk t).view.emb (ix2 (0 : Fin 1) q) = ix2 (0 : Fin 1) (colOf t q) from funext fun d => Fin.ext (by
    match d with
    | ⟨0, _⟩ => show win0_16.index t (0 : Fin 2) * 1 + 1 * 0 = 0; omega
    | ⟨1, _⟩ => show win0_16.index t (1 : Fin 2) * 512 + 1 * q.val = win0_19.index t (1 : Fin 2) * 512 + q.val; omega)]
  exact V_bhf m c _

theorem read_bhg (c : Dev nD) (t : Fin cfg0.N) (q : Fin 512) :
    iblk m c 17 t (ix2 (0 : Fin 1) q) = (argsOf m c).bhg (ix1 (colOf t q)) := by
  obtain ⟨e0, e1⟩ := (by decide +kernel : ∀ t : Fin grid0.N, win0_17.index t (0 : Fin 2) = 0 ∧ win0_17.index t (1 : Fin 2) = win0_19.index t (1 : Fin 2)) t
  show V m c main_v16 (((cfg0.win 17).blk t).view.emb (ix2 (0 : Fin 1) q)) = _
  rw [show ((cfg0.win 17).blk t).view.emb (ix2 (0 : Fin 1) q) = ix2 (0 : Fin 1) (colOf t q) from funext fun d => Fin.ext (by
    match d with
    | ⟨0, _⟩ => show win0_17.index t (0 : Fin 2) * 1 + 1 * 0 = 0; omega
    | ⟨1, _⟩ => show win0_17.index t (1 : Fin 2) * 512 + 1 * q.val = win0_19.index t (1 : Fin 2) * 512 + q.val; omega)]
  exact V_bhg m c _

theorem read_bho (c : Dev nD) (t : Fin cfg0.N) (q : Fin 512) :
    iblk m c 18 t (ix2 (0 : Fin 1) q) = (argsOf m c).bho (ix1 (colOf t q)) := by
  obtain ⟨e0, e1⟩ := (by decide +kernel : ∀ t : Fin grid0.N, win0_18.index t (0 : Fin 2) = 0 ∧ win0_18.index t (1 : Fin 2) = win0_19.index t (1 : Fin 2)) t
  show V m c main_v17 (((cfg0.win 18).blk t).view.emb (ix2 (0 : Fin 1) q)) = _
  rw [show ((cfg0.win 18).blk t).view.emb (ix2 (0 : Fin 1) q) = ix2 (0 : Fin 1) (colOf t q) from funext fun d => Fin.ext (by
    match d with
    | ⟨0, _⟩ => show win0_18.index t (0 : Fin 2) * 1 + 1 * 0 = 0; omega
    | ⟨1, _⟩ => show win0_18.index t (1 : Fin 2) * 512 + 1 * q.val = win0_19.index t (1 : Fin 2) * 512 + q.val; omega)]
  exact V_bho m c _

end Cert.KernelIdeal.Blocks

end
-- ==== Proof.KernelFlush.lean ====
/-
  From the blocks to the arrays: what every grid point writes back is a block of ONE whole-array function.

  At point `t`, entry `(p, q)` of the first output block is the new hidden state at batch row `rowOf t p` and hidden
  unit `colOf t q`, because every block the body reads is the matching piece of its argument array (the block reads);
  likewise the second output block and the new cell state. The 32 output blocks tile the [4096, 2048] array — the
  point whose block holds row `r` and column `s` is the one with block index `(r / 512, s / 512)` — so after the run
  the two output arrays ARE the whole-array functions `hArr` and `cArr` of the arguments.
-/
import proofs.«114114_j17480516895199_1_alg».proof.Proof.KernelBlocks

set_option maxRecDepth 16384

noncomputable section

namespace Cert.KernelIdeal.Blocks

open Cert.KernelIdeal Cert.KernelIdeal.Gen Cert.KernelIdeal.Body
open Idealize.ShloMosaic Idealize.ShloMosaic.ValueIdx Idealize.ShloMosaic.TcCoe Idealize.SL.Sem
open Idealize.ShloMosaic.Pipeline (Dat Cfg Window)

variable (m : (ℓ : Loc nD τ sig) → Buf (Elt Ideal) ℓ)

/-! ## A gate's pre-activation from block reads -/

/-- If the six blocks are the matching pieces of six arrays — the `x` and `h` blocks' row `p` is row `b`, the weight
    blocks' row `q` is row `j`, the bias rows' entry `q` is entry `j` — the block's pre-activation at `(p, q)` is the
    arrays' at `(b, j)`. -/
theorem zblk_of_reads (xb hb Wib Whb : FVec Ideal S512x2048 .bf16) (bib bhb : FVec Ideal S1x512 .f32)
    (x h : FVec Ideal Cert.Lstm.SAct .f32) (Wi Wh : FVec Ideal Cert.Lstm.SW .f32) (bi bh : FVec Ideal Cert.Lstm.SB .f32)
    (p q : Fin 512) (b : Fin 4096) (j : Fin 2048)
    (hx : ∀ a : Fin 2048, xb (ix2 p a) = x (ix2 b a)) (hh : ∀ a : Fin 2048, hb (ix2 p a) = h (ix2 b a))
    (hWi : ∀ a : Fin 2048, Wib (ix2 q a) = Wi (ix2 j a)) (hWh : ∀ a : Fin 2048, Whb (ix2 q a) = Wh (ix2 j a))
    (hbi : bib (ix2 (0 : Fin 1) q) = bi (ix1 j)) (hbh : bhb (ix2 (0 : Fin 1) q) = bh (ix1 j)) :
    zblk xb hb Wib Whb bib bhb p q = Cert.Lstm.gate x h Wi Wh bi bh b j := by
  unfold zblk Cert.Lstm.gate
  rw [hbi, hbh]
  simp only [hx, hh, hWi, hWh]

variable (c : Dev nD) (t : Fin cfg0.N) (p q : Fin 512)

theorem z_i : zblk (iblk m c 0 t) (iblk m c 1 t) (iblk m c 3 t) (iblk m c 7 t) (iblk m c 11 t) (iblk m c 15 t) p q
      = Cert.Lstm.zi (argsOf m c) (rowOf t p) (colOf t q) :=
  zblk_of_reads (iblk m c 0 t) (iblk m c 1 t) (iblk m c 3 t) (iblk m c 7 t) (iblk m c 11 t) (iblk m c 15 t)
    (argsOf m c).x (argsOf m c).h (argsOf m c).Wxi (argsOf m c).Whi (argsOf m c).bxi (argsOf m c).bhi p q (rowOf t p) (colOf t q)
    (read_x m c t p) (read_h m c t p) (read_Wxi m c t q) (read_Whi m c t q) (read_bxi m c t q) (read_bhi m c t q)

theorem z_f : zblk (iblk m c 0 t) (iblk m c 1 t) (iblk m c 4 t) (iblk m c 8 t) (iblk m c 12 t) (iblk m c 16 t) p q
      = Cert.Lstm.zf (argsOf m c) (rowOf t p) (colOf t q) :=
  zblk_of_reads (iblk m c 0 t) (iblk m c 1 t) (iblk m c 4 t) (iblk m c 8 t) (iblk m c 12 t) (iblk m c 16 t)
    (argsOf m c).x (argsOf m c).h (argsOf m c).Wxf (argsOf m c).Whf (argsOf m c).bxf (argsOf m c).bhf p q (rowOf t p) (colOf t q)
    (read_x m c t p) (read_h m c t p) (read_Wxf m c t q) (read_Whf m c t q) (read_bxf m c t q) (read_bhf m c t q)

theorem z_g : zblk (iblk m c 0 t) (iblk m c 1 t) (iblk m c 5 t) (iblk m c 9 t) (iblk m c 13 t) (iblk m c 17 t) p q
      = Cert.Lstm.zg (argsOf m c) (rowOf t p) (colOf t q) :=
  zblk_of_reads (iblk m c 0 t) (iblk m c 1 t) (iblk m c 5 t) (iblk m c 9 t) (iblk m c 13 t) (iblk m c 17 t)
    (argsOf m c).x (argsOf m c).h (argsOf m c).Wxg (argsOf m c).Whg (argsOf m c).bxg (argsOf m c).bhg p q (rowOf t p) (colOf t q)
    (read_x m c t p) (read_h m c t p) (read_Wxg m c t q) (read_Whg m c t q) (read_bxg m c t q) (read_bhg m c t q)

theorem z_o : zblk (iblk m c 0 t) (iblk m c 1 t) (iblk m c 6 t) (iblk m c 10 t) (iblk m c 14 t) (iblk m c 18 t) p q
      = Cert.Lstm.zo (argsOf m c) (rowOf t p) (colOf t q) :=
  zblk_of_reads (iblk m c 0 t) (iblk m c 1 t) (iblk m c 6 t) (iblk m c 10 t) (iblk m c 14 t) (iblk m c 18 t)
    (argsOf m c).x (argsOf m c).h (argsOf m c).Wxo (argsOf m c).Who (argsOf m c).bxo (argsOf m c).bho p q (rowOf t p) (colOf t q)
    (read_x m c t p) (read_h m c t p) (read_Wxo m c t q) (read_Who m c t q) (read_bxo m c t q) (read_bho m c t q)

/-- The new cell state of the point's blocks is the arrays' at the block entry's row and column. -/
theorem cblk_at : cblk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) p q = Cert.Lstm.cNew (argsOf m c) (rowOf t p) (colOf t q) := by
  unfold cblk Cert.Lstm.cNew
  rw [z_f m c t p q, z_i m c t p q, z_g m c t p q, read_c m c t p q]

/-- The new hidden state of the point's blocks likewise. -/
theorem hblk_at : hblk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) p q = Cert.Lstm.hNew (argsOf m c) (rowOf t p) (colOf t q) := by
  unfold hblk Cert.Lstm.hNew
  rw [z_o m c t p q, cblk_at m c t p q]

/-! ## What a point writes back -/

/-- Where entry `(p, q)` of the first output block lies in the array. -/
theorem emb19 : ((cfg0.win 19).blk t).view.emb (ix2 p q) = ix2 (rowOf t p) (colOf t q) :=
  funext fun d => Fin.ext (by
    match d with
    | ⟨0, _⟩ => show win0_19.index t (0 : Fin 2) * 512 + 1 * p.val = win0_19.index t (0 : Fin 2) * 512 + p.val; omega
    | ⟨1, _⟩ => show win0_19.index t (1 : Fin 2) * 512 + 1 * q.val = win0_19.index t (1 : Fin 2) * 512 + q.val; omega)

/-- The second output's blocks sit where the first's do. -/
theorem emb20 : ((cfg0.win 20).blk t).view.emb (ix2 p q) = ix2 (rowOf t p) (colOf t q) := by
  obtain ⟨e0, e1⟩ := (by decide +kernel : ∀ t : Fin grid0.N, win0_20.index t (0 : Fin 2) = win0_19.index t (0 : Fin 2) ∧ win0_20.index t (1 : Fin 2) = win0_19.index t (1 : Fin 2)) t
  exact funext fun d => Fin.ext (by
    match d with
    | ⟨0, _⟩ => show win0_20.index t (0 : Fin 2) * 512 + 1 * p.val = win0_19.index t (0 : Fin 2) * 512 + p.val; omega
    | ⟨1, _⟩ => show win0_20.index t (1 : Fin 2) * 512 + 1 * q.val = win0_19.index t (1 : Fin 2) * 512 + q.val; omega)

omit p q in
/-- WHAT POINT `t` WRITES BACK to the first output is block `t` of the new hidden state. -/
theorem flushed19_eq :
    (dats m 0 c).flushed 19 t = ((cfg0.win 19).blk t).view.read (Elt Ideal) (Cert.Lstm.hArr (argsOf m c)) := by
  show (cfg0.win 19).cut (grid0.coords t) ((dats m 0 c).after 19 t) = _
  rw [after0_19]
  refine funext fun (y : S512x512.Idx) => ?_
  obtain ⟨p, q, rfl⟩ : ∃ (p q : Fin 512), y = ix2 p q := ⟨y 0, y 1, eq_ix2 y⟩
  show out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (ix2 p q) = Cert.Lstm.hArr (argsOf m c) (((cfg0.win 19).blk t).view.emb (ix2 p q))
  rw [emb19 t p q, Cert.Lstm.hArr_ix2]
  exact (out0_19_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) p q).trans (hblk_at m c t p q)

omit p q in
/-- WHAT POINT `t` WRITES BACK to the second output is block `t` of the new cell state. -/
theorem flushed20_eq :
    (dats m 0 c).flushed 20 t = ((cfg0.win 20).blk t).view.read (Elt Ideal) (Cert.Lstm.cArr (argsOf m c)) := by
  show (cfg0.win 20).cut (grid0.coords t) ((dats m 0 c).after 20 t) = _
  rw [after0_20]
  refine funext fun (y : S512x512.Idx) => ?_
  obtain ⟨p, q, rfl⟩ : ∃ (p q : Fin 512), y = ix2 p q := ⟨y 0, y 1, eq_ix2 y⟩
  show out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (ix2 p q) = Cert.Lstm.cArr (argsOf m c) (((cfg0.win 20).blk t).view.emb (ix2 p q))
  rw [emb20 t p q, Cert.Lstm.cArr_ix2]
  exact (out0_20_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) p q).trans (cblk_at m c t p q)

/-! ## The blocks tile the array -/

omit m c p q in
/-- An index of the array is in point `t`'s block iff each coordinate is in the block's range on its axis. -/
theorem mem_blk19 (i : S4096x2048.Idx) :
    i ∈ ((cfg0.win 19).blk t).view.set ↔ ∀ a : Fin 2, win0_19.index t a * S512x512.size a ≤ (i a).val ∧ (i a).val < win0_19.index t a * S512x512.size a + S512x512.size a := by
  show i ∈ ((View.whole main_v18_0).slice (win0_19.rect t)).set ↔ _
  rw [View.set_slice_whole, Rect.mem_set_unit]
  exact Iff.rfl

omit m c p q in
theorem mem_blk20 (i : S4096x2048.Idx) :
    i ∈ ((cfg0.win 20).blk t).view.set ↔ ∀ a : Fin 2, win0_20.index t a * S512x512.size a ≤ (i a).val ∧ (i a).val < win0_20.index t a * S512x512.size a + S512x512.size a := by
  show i ∈ ((View.whole main_v18_1).slice (win0_20.rect t)).set ↔ _
  rw [View.set_slice_whole, Rect.mem_set_unit]
  exact Iff.rfl

/-- Every block index of the 8 × 4 tiling is some point's. -/
theorem onto19 : ∀ (q0 : Fin 8) (q1 : Fin 4), ∃ t : Fin cfg0.N, win0_19.index t = ![q0.val, q1.val] :=
  (by decide +kernel : ∀ (q0 : Fin 8) (q1 : Fin 4), ∃ t : Fin grid0.N, win0_19.index t = ![q0.val, q1.val])
theorem onto20 : ∀ (q0 : Fin 8) (q1 : Fin 4), ∃ t : Fin cfg0.N, win0_20.index t = ![q0.val, q1.val] :=
  (by decide +kernel : ∀ (q0 : Fin 8) (q1 : Fin 4), ∃ t : Fin grid0.N, win0_20.index t = ![q0.val, q1.val])

/-- Every index of the first output array lies in some point's block: the point with block index (row / 512, column / 512). -/
theorem cover19 (i : S4096x2048.Idx) :
    ∃ t : Fin cfg0.N, (cfg0.win 19).flush t = true ∧ i ∈ ((cfg0.win 19).blk t).view.set := by
  have hi0 : (i 0).val < 4096 := (i 0).isLt
  have hi1 : (i 1).val < 2048 := (i 1).isLt
  obtain ⟨t, ht⟩ := onto19 ⟨(i 0).val / 512, by omega⟩ ⟨(i 1).val / 512, by omega⟩
  have q0 : win0_19.index t (0 : Fin 2) = (i 0).val / 512 := congrFun ht 0
  have q1 : win0_19.index t (1 : Fin 2) = (i 1).val / 512 := congrFun ht 1
  refine ⟨t, flush0_19 t, ?_⟩
  rw [mem_blk19]
  intro a
  match a with
  | ⟨0, _⟩ => show win0_19.index t (0 : Fin 2) * 512 ≤ (i 0).val ∧ (i 0).val < win0_19.index t (0 : Fin 2) * 512 + 512; omega
  | ⟨1, _⟩ => show win0_19.index t (1 : Fin 2) * 512 ≤ (i 1).val ∧ (i 1).val < win0_19.index t (1 : Fin 2) * 512 + 512; omega

theorem cover20 (i : S4096x2048.Idx) :
    ∃ t : Fin cfg0.N, (cfg0.win 20).flush t = true ∧ i ∈ ((cfg0.win 20).blk t).view.set := by
  have hi0 : (i 0).val < 4096 := (i 0).isLt
  have hi1 : (i 1).val < 2048 := (i 1).isLt
  obtain ⟨t, ht⟩ := onto20 ⟨(i 0).val / 512, by omega⟩ ⟨(i 1).val / 512, by omega⟩
  have q0 : win0_20.index t (0 : Fin 2) = (i 0).val / 512 := congrFun ht 0
  have q1 : win0_20.index t (1 : Fin 2) = (i 1).val / 512 := congrFun ht 1
  refine ⟨t, flush0_20 t, ?_⟩
  rw [mem_blk20]
  intro a
  match a with
  | ⟨0, _⟩ => show win0_20.index t (0 : Fin 2) * 512 ≤ (i 0).val ∧ (i 0).val < win0_20.index t (0 : Fin 2) * 512 + 512; omega
  | ⟨1, _⟩ => show win0_20.index t (1 : Fin 2) * 512 ≤ (i 1).val ∧ (i 1).val < win0_20.index t (1 : Fin 2) * 512 + 512; omega

/-! ## The two output arrays after the run -/

omit t p q in
/-- THE FIRST OUTPUT ARRAY after the run is the new hidden state. -/
theorem final19 : (dats m 0 c).arrAt 19 cfg0.N = Cert.Lstm.hArr (argsOf m c) :=
  (dats m 0 c).arrAt_eq_of_cover 19 (Cert.Lstm.hArr (argsOf m c)) (fun t _ => flushed19_eq m c t) cover19

omit t p q in
/-- THE SECOND OUTPUT ARRAY after the run is the new cell state. -/
theorem final20 : (dats m 0 c).arrAt 20 cfg0.N = Cert.Lstm.cArr (argsOf m c) :=
  (dats m 0 c).arrAt_eq_of_cover 20 (Cert.Lstm.cArr (argsOf m c)) (fun t _ => flushed20_eq m c t) cover20

end Cert.KernelIdeal.Blocks

end
-- ==== Proof.KernelRun.lean ====
/-
  The kernel program's run, read: its result is the stacked LSTM output.

  After the kernel region the host gives each of the two output arrays a leading unit axis and joins the two along that
  axis: plane 0 of the result is the first output array (the new hidden state), plane 1 the second (the new cell
  state). The region leaves those two arrays at the whole-array functions `hArr` and `cArr`; every argument array is
  unchanged.
-/
import proofs.«114114_j17480516895199_1_alg».proof.Proof.KernelFlush

set_option maxRecDepth 16384

noncomputable section

namespace Cert.KernelIdeal.Blocks

open Cert.KernelIdeal Cert.KernelIdeal.Gen Cert.KernelIdeal.Body
open Idealize.ShloMosaic Idealize.ShloMosaic.ValueIdx Idealize.ShloMosaic.TcCoe Idealize.SL.Sem
open Idealize.ShloMosaic.Pipeline (Dat Cfg Window)

/-! ## Two arrays stacked along a new leading axis, read at an entry -/

theorem stack_plane0 (H C : FVec Ideal S4096x2048 .f32) (b : Fin 4096) (j : Fin 2048) :
    concatenate S2x4096x2048 0 [⟨S1x4096x2048, broadcastInDim S1x4096x2048 ![1, 2] bcast_S4096x2048_S1x4096x2048_1_2 H⟩,
        ⟨S1x4096x2048, broadcastInDim S1x4096x2048 ![1, 2] bcast_S4096x2048_S1x4096x2048_1_2 C⟩]
        concatenates_S1x4096x2048_S1x4096x2048_S2x4096x2048_d0 (ix3 (0 : Fin 2) b j) = H (ix2 b j) := by
  refine (concatenate_pair_apply_left (s₁ := S1x4096x2048) (s₂ := S1x4096x2048) (0 : Fin S2x4096x2048.rank) _ _ _
    (ix3 (0 : Fin 2) b j) rfl (ix3 (0 : Fin 1) b j)
    (fun d => match d with | ⟨0, _⟩ => rfl | ⟨1, _⟩ => rfl | ⟨2, _⟩ => rfl)).trans ?_
  exact broadcastInDim_apply ![1, 2] bcast_S4096x2048_S1x4096x2048_1_2 H (ix3 (0 : Fin 1) b j) (ix2 b j)
    (fun a => match a with | ⟨0, _⟩ => rfl | ⟨1, _⟩ => rfl)

theorem stack_plane1 (H C : FVec Ideal S4096x2048 .f32) (b : Fin 4096) (j : Fin 2048) :
    concatenate S2x4096x2048 0 [⟨S1x4096x2048, broadcastInDim S1x4096x2048 ![1, 2] bcast_S4096x2048_S1x4096x2048_1_2 H⟩,
        ⟨S1x4096x2048, broadcastInDim S1x4096x2048 ![1, 2] bcast_S4096x2048_S1x4096x2048_1_2 C⟩]
        concatenates_S1x4096x2048_S1x4096x2048_S2x4096x2048_d0 (ix3 (1 : Fin 2) b j) = C (ix2 b j) := by
  refine (concatenate_pair_apply_right (s₁ := S1x4096x2048) (s₂ := S1x4096x2048) (0 : Fin S2x4096x2048.rank) _ _ _
    (ix3 (1 : Fin 2) b j) rfl rfl (ix3 (0 : Fin 1) b j)
    (fun d hd => match d, hd with
      | ⟨0, _⟩, hd => absurd rfl hd
      | ⟨1, _⟩, _ => rfl
      | ⟨2, _⟩, _ => rfl) rfl).trans ?_
  exact broadcastInDim_apply ![1, 2] bcast_S4096x2048_S1x4096x2048_1_2 C (ix3 (0 : Fin 1) b j) (ix2 b j)
    (fun a => match a with | ⟨0, _⟩ => rfl | ⟨1, _⟩ => rfl)

/-- The two planes stacked are the LSTM result, when the planes are the new hidden and cell states. -/
theorem stack_eq_out (A : Cert.Lstm.Args) :
    concatenate S2x4096x2048 0 [⟨S1x4096x2048, broadcastInDim S1x4096x2048 ![1, 2] bcast_S4096x2048_S1x4096x2048_1_2 (Cert.Lstm.hArr A)⟩,
        ⟨S1x4096x2048, broadcastInDim S1x4096x2048 ![1, 2] bcast_S4096x2048_S1x4096x2048_1_2 (Cert.Lstm.cArr A)⟩]
        concatenates_S1x4096x2048_S1x4096x2048_S2x4096x2048_d0 = Cert.Lstm.out A := by
  funext i
  obtain ⟨s, b, j, rfl⟩ : ∃ (s : Fin 2) (b : Fin 4096) (j : Fin 2048), i = ix3 s b j := ⟨i 0, i 1, i 2, eq_ix3 i⟩
  match s with
  | ⟨0, _⟩ => exact (stack_plane0 (Cert.Lstm.hArr A) (Cert.Lstm.cArr A) b j).trans (Cert.Lstm.out_plane0 A b j).symm
  | ⟨1, _⟩ => exact (stack_plane1 (Cert.Lstm.hArr A) (Cert.Lstm.cArr A) b j).trans (Cert.Lstm.out_plane1 A b j).symm

variable (m : (ℓ : Loc nD τ sig) → Buf (Elt Ideal) ℓ)

/-! ## The host lines after the region -/

/-- What @main's result holds once the lines after the region have run over the region's two output arrays. -/
theorem tail_eq (c : Dev nD) :
    Pipeline.afterTail₀ cfgs (dats m) 0 (V0 m) [hostOps1] c main_v21 = Cert.Lstm.out (argsOf m c) := by
  have h19 : Pipeline.withArrays (cfgs 0).spec c (V0 m c) (fun w => (dats m 0 c).arrAt w (cfgs 0).N) (Proc.devRef .tc main_v18_0)
      = Cert.Lstm.hArr (argsOf m c) :=
    (Pipeline.withArrays_arr spec0 launch0.win.arr_inj c _ _ 19).trans (final19 m c)
  have h20 : Pipeline.withArrays (cfgs 0).spec c (V0 m c) (fun w => (dats m 0 c).arrAt w (cfgs 0).N) (Proc.devRef .tc main_v18_1)
      = Cert.Lstm.cArr (argsOf m c) :=
    (Pipeline.withArrays_arr spec0 launch0.win.arr_inj c _ _ 20).trans (final20 m c)
  unfold Pipeline.afterTail₀
  show StableHlo.after hostOps1 _ (Proc.devRef .tc main_v21) = _
  after_results
  rw [h19, h20]
  exact stack_eq_out (argsOf m c)

/-! ## The run -/

/-- Every weakly fair execution of the idealized kernel program ends with @main's result at the stacked LSTM output of
    the argument arrays as launched. -/
theorem result_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v21) = Cert.Lstm.out (argsOf m c)) :=
  (θ_run defs _ _).mono (fun r h c =>
      ((h c).2 main_v21 (Pipeline.mem_restRefs_of main_v21 (by decide) (by decide))).trans (tail_eq m c))
    (run_main m ρ)

end Cert.KernelIdeal.Blocks

end
-- ==== Proof.RefValue.lean ====
/-
  The reference program's result is the LSTM cell.

  The reference joins the four input-side weight matrices into one [8192, 2048] matrix (and likewise the hidden-side
  matrices and the two groups of biases), forms all four gates' pre-activations with two matrix products and two
  broadcast additions, and cuts the [4096, 8192] result back into four [4096, 2048] column bands. Read at a batch row
  `b` and a hidden unit `j`, band `g` at column `j` is column `2048 g + j` of the joined product, whose weight row is
  row `j` of gate `g`'s own matrix: so each band is that gate's pre-activation `Cert.Lstm.gate`. The logistic function
  is spelt `1 / (1 + exp (-z))`, which on the extended reals is the function `Ideal.logistic` itself.
-/
import proofs.«114114_j17480516895199_1_alg».proof.Proof.Gen.ReferenceIdeal.Read
import proofs.«114114_j17480516895199_1_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx

/-! ## The logistic function as the reference spells it -/

/-- The pattern of the constant `1.0` denotes the extended real `1`. -/
theorem one_eq : Ideal.ofBits .f32 0x3F800000#32 = (1 : EReal) := by
  simp [Ideal.ofBits, Ideal.ieee, -EReal.coe_mul]; norm_num

/-- `1 / (1 + exp (-z))`, in the host's operations, is the logistic function. -/
theorem logistic_spelt (z : Ideal .f32) :
    FloatOps.hostDivf (F := Ideal) (φ := .f32) (FloatOps.ofBits .f32 0x3F800000#32)
      (FloatOps.addf (FloatOps.ofBits .f32 0x3F800000#32) (FloatOps.hostUnary .exp (FloatOps.hostNegf z)))
      = Ideal.logistic z := by
  simp only [Ideal.hostDivf_def, Ideal.addf_def, Ideal.hostUnary_exp_def, Ideal.hostNegf_def, Ideal.negf_def,
    Ideal.ofBits_def, one_eq]
  rfl

/-! ## The joined arrays, read at an index

Four [2048, 2048] matrices stacked along the rows: row `2048 g + j` of the stack is row `j` of matrix `g`. Four
[2048] vectors laid end to end: entry `2048 g + j` is entry `j` of vector `g`. -/

section Joined
variable {α : Type}

theorem stack_mat0 (y0 y1 y2 y3 : S2048x2048.Idx → α)
    (h : Shape.Concatenates [S2048x2048, S2048x2048, S2048x2048, S2048x2048] S8192x2048 0)
    (j a : Fin 2048) (hj : j.val < 8192) :
    concatenate S8192x2048 0 [⟨S2048x2048, y0⟩, ⟨S2048x2048, y1⟩, ⟨S2048x2048, y2⟩, ⟨S2048x2048, y3⟩] h
      (ix2 (⟨j.val, hj⟩ : Fin 8192) a) = y0 (ix2 j a) :=
  concatenate_apply_piece (0 : Fin S8192x2048.rank)
    [⟨S2048x2048, y0⟩, ⟨S2048x2048, y1⟩, ⟨S2048x2048, y2⟩, ⟨S2048x2048, y3⟩] h _ 0 (by show 0 < 4; omega)
    S2048x2048 y0 rfl rfl 0 rfl (ix2 j a)
    (fun b hb => match b, hb with
      | ⟨0, _⟩, hb => absurd rfl hb
      | ⟨1, _⟩, _ => rfl)
    (Nat.zero_add _)

theorem stack_mat1 (y0 y1 y2 y3 : S2048x2048.Idx → α)
    (h : Shape.Concatenates [S2048x2048, S2048x2048, S2048x2048, S2048x2048] S8192x2048 0)
    (j a : Fin 2048) (hj : 2048 + j.val < 8192) :
    concatenate S8192x2048 0 [⟨S2048x2048, y0⟩, ⟨S2048x2048, y1⟩, ⟨S2048x2048, y2⟩, ⟨S2048x2048, y3⟩] h
      (ix2 (⟨2048 + j.val, hj⟩ : Fin 8192) a) = y1 (ix2 j a) :=
  concatenate_apply_piece (0 : Fin S8192x2048.rank)
    [⟨S2048x2048, y0⟩, ⟨S2048x2048, y1⟩, ⟨S2048x2048, y2⟩, ⟨S2048x2048, y3⟩] h _ 1 (by show 1 < 4; omega)
    S2048x2048 y1 rfl rfl 2048 rfl (ix2 j a)
    (fun b hb => match b, hb with
      | ⟨0, _⟩, hb => absurd rfl hb
      | ⟨1, _⟩, _ => rfl)
    rfl

theorem stack_mat2 (y0 y1 y2 y3 : S2048x2048.Idx → α)
    (h : Shape.Concatenates [S2048x2048, S2048x2048, S2048x2048, S2048x2048] S8192x2048 0)
    (j a : Fin 2048) (hj : 4096 + j.val < 8192) :
    concatenate S8192x2048 0 [⟨S2048x2048, y0⟩, ⟨S2048x2048, y1⟩, ⟨S2048x2048, y2⟩, ⟨S2048x2048, y3⟩] h
      (ix2 (⟨4096 + j.val, hj⟩ : Fin 8192) a) = y2 (ix2 j a) :=
  concatenate_apply_piece (0 : Fin S8192x2048.rank)
    [⟨S2048x2048, y0⟩, ⟨S2048x2048, y1⟩, ⟨S2048x2048, y2⟩, ⟨S2048x2048, y3⟩] h _ 2 (by show 2 < 4; omega)
    S2048x2048 y2 rfl rfl 4096 rfl (ix2 j a)
    (fun b hb => match b, hb with
      | ⟨0, _⟩, hb => absurd rfl hb
      | ⟨1, _⟩, _ => rfl)
    rfl

theorem stack_mat3 (y0 y1 y2 y3 : S2048x2048.Idx → α)
    (h : Shape.Concatenates [S2048x2048, S2048x2048, S2048x2048, S2048x2048] S8192x2048 0)
    (j a : Fin 2048) (hj : 6144 + j.val < 8192) :
    concatenate S8192x2048 0 [⟨S2048x2048, y0⟩, ⟨S2048x2048, y1⟩, ⟨S2048x2048, y2⟩, ⟨S2048x2048, y3⟩] h
      (ix2 (⟨6144 + j.val, hj⟩ : Fin 8192) a) = y3 (ix2 j a) :=
  concatenate_apply_piece (0 : Fin S8192x2048.rank)
    [⟨S2048x2048, y0⟩, ⟨S2048x2048, y1⟩, ⟨S2048x2048, y2⟩, ⟨S2048x2048, y3⟩] h _ 3 (by show 3 < 4; omega)
    S2048x2048 y3 rfl rfl 6144 rfl (ix2 j a)
    (fun b hb => match b, hb with
      | ⟨0, _⟩, hb => absurd rfl hb
      | ⟨1, _⟩, _ => rfl)
    rfl

theorem join_vec0 (y0 y1 y2 y3 : S2048.Idx → α)
    (h : Shape.Concatenates [S2048, S2048, S2048, S2048] S8192 0)
    (j : Fin 2048) (hj : j.val < 8192) :
    concatenate S8192 0 [⟨S2048, y0⟩, ⟨S2048, y1⟩, ⟨S2048, y2⟩, ⟨S2048, y3⟩] h
      (ix1 (⟨j.val, hj⟩ : Fin 8192)) = y0 (ix1 j) :=
  concatenate_apply_piece (0 : Fin S8192.rank)
    [⟨S2048, y0⟩, ⟨S2048, y1⟩, ⟨S2048, y2⟩, ⟨S2048, y3⟩] h _ 0 (by show 0 < 4; omega)
    S2048 y0 rfl rfl 0 rfl (ix1 j)
    (fun b hb => match b, hb with
      | ⟨0, _⟩, hb => absurd rfl hb)
    (Nat.zero_add _)

theorem join_vec1 (y0 y1 y2 y3 : S2048.Idx → α)
    (h : Shape.Concatenates [S2048, S2048, S2048, S2048] S8192 0)
    (j : Fin 2048) (hj : 2048 + j.val < 8192) :
    concatenate S8192 0 [⟨S2048, y0⟩, ⟨S2048, y1⟩, ⟨S2048, y2⟩, ⟨S2048, y3⟩] h
      (ix1 (⟨2048 + j.val, hj⟩ : Fin 8192)) = y1 (ix1 j) :=
  concatenate_apply_piece (0 : Fin S8192.rank)
    [⟨S2048, y0⟩, ⟨S2048, y1⟩, ⟨S2048, y2⟩, ⟨S2048, y3⟩] h _ 1 (by show 1 < 4; omega)
    S2048 y1 rfl rfl 2048 rfl (ix1 j)
    (fun b hb => match b, hb with
      | ⟨0, _⟩, hb => absurd rfl hb)
    rfl

theorem join_vec2 (y0 y1 y2 y3 : S2048.Idx → α)
    (h : Shape.Concatenates [S2048, S2048, S2048, S2048] S8192 0)
    (j : Fin 2048) (hj : 4096 + j.val < 8192) :
    concatenate S8192 0 [⟨S2048, y0⟩, ⟨S2048, y1⟩, ⟨S2048, y2⟩, ⟨S2048, y3⟩] h
      (ix1 (⟨4096 + j.val, hj⟩ : Fin 8192)) = y2 (ix1 j) :=
  concatenate_apply_piece (0 : Fin S8192.rank)
    [⟨S2048, y0⟩, ⟨S2048, y1⟩, ⟨S2048, y2⟩, ⟨S2048, y3⟩] h _ 2 (by show 2 < 4; omega)
    S2048 y2 rfl rfl 4096 rfl (ix1 j)
    (fun b hb => match b, hb with
      | ⟨0, _⟩, hb => absurd rfl hb)
    rfl

theorem join_vec3 (y0 y1 y2 y3 : S2048.Idx → α)
    (h : Shape.Concatenates [S2048, S2048, S2048, S2048] S8192 0)
    (j : Fin 2048) (hj : 6144 + j.val < 8192) :
    concatenate S8192 0 [⟨S2048, y0⟩, ⟨S2048, y1⟩, ⟨S2048, y2⟩, ⟨S2048, y3⟩] h
      (ix1 (⟨6144 + j.val, hj⟩ : Fin 8192)) = y3 (ix1 j) :=
  concatenate_apply_piece (0 : Fin S8192.rank)
    [⟨S2048, y0⟩, ⟨S2048, y1⟩, ⟨S2048, y2⟩, ⟨S2048, y3⟩] h _ 3 (by show 3 < 4; omega)
    S2048 y3 rfl rfl 6144 rfl (ix1 j)
    (fun b hb => match b, hb with
      | ⟨0, _⟩, hb => absurd rfl hb)
    rfl

end Joined

section Reference
variable (x0 x1 x2 : (⟨S4096x2048, .f32⟩ : BufTy).Contents (Elt Ideal))
  (x3 : (⟨S2048x2048, .f32⟩ : BufTy).Contents (Elt Ideal)) (x4 : (⟨S2048, .f32⟩ : BufTy).Contents (Elt Ideal))
  (x5 : (⟨S2048x2048, .f32⟩ : BufTy).Contents (Elt Ideal)) (x6 : (⟨S2048, .f32⟩ : BufTy).Contents (Elt Ideal))
  (x7 : (⟨S2048x2048, .f32⟩ : BufTy).Contents (Elt Ideal)) (x8 : (⟨S2048, .f32⟩ : BufTy).Contents (Elt Ideal))
  (x9 : (⟨S2048x2048, .f32⟩ : BufTy).Contents (Elt Ideal)) (x10 : (⟨S2048, .f32⟩ : BufTy).Contents (Elt Ideal))
  (x11 : (⟨S2048x2048, .f32⟩ : BufTy).Contents (Elt Ideal)) (x12 : (⟨S2048, .f32⟩ : BufTy).Contents (Elt Ideal))
  (x13 : (⟨S2048x2048, .f32⟩ : BufTy).Contents (Elt Ideal)) (x14 : (⟨S2048, .f32⟩ : BufTy).Contents (Elt Ideal))
  (x15 : (⟨S2048x2048, .f32⟩ : BufTy).Contents (Elt Ideal)) (x16 : (⟨S2048, .f32⟩ : BufTy).Contents (Elt Ideal))
  (x17 : (⟨S2048x2048, .f32⟩ : BufTy).Contents (Elt Ideal)) (x18 : (⟨S2048, .f32⟩ : BufTy).Contents (Elt Ideal))

/-! ## The joined pre-activation

Column `c` of the [4096, 8192] array of all four gates' pre-activations, at batch row `b`: the input row against row
`c` of the stacked input-side matrix, plus the hidden row against row `c` of the stacked hidden-side matrix, plus
entry `c` of each joined bias, in that order. -/

theorem joined_apply (b : Fin 4096) (c : Fin 8192) :
    val_main_v14 (F := Ideal) x0 x1 x3 x4 x5 x6 x7 x8 x9 x10 x11 x12 x13 x14 x15 x16 x17 x18 (ix2 b c)
      = (((∑ a : Fin 2048, x0 (ix2 b a) * val_main_v0 (F := Ideal) x3 x7 x11 x15 (ix2 c a))
          + (∑ a : Fin 2048, x1 (ix2 b a) * val_main_v1 (F := Ideal) x5 x9 x13 x17 (ix2 c a)))
          + val_main_v2 (F := Ideal) x4 x8 x12 x16 (ix1 c)) + val_main_v3 (F := Ideal) x6 x10 x14 x18 (ix1 c) := by
  have hl5 : ∀ a : Fin 2048, lidx_main_v5 (ix2 b c) a = ix2 b a := fun a => funext fun d =>
    match d with | ⟨0, _⟩ => rfl | ⟨1, _⟩ => rfl
  have hr5 : ∀ a : Fin 2048, idx_main_v4 (ridx_main_v5 (ix2 b c) a) = ix2 c a := fun a => funext fun d =>
    match d with | ⟨0, _⟩ => rfl | ⟨1, _⟩ => rfl
  have hl7 : ∀ a : Fin 2048, lidx_main_v7 (ix2 b c) a = ix2 b a := fun a => funext fun d =>
    match d with | ⟨0, _⟩ => rfl | ⟨1, _⟩ => rfl
  have hr7 : ∀ a : Fin 2048, idx_main_v6 (ridx_main_v7 (ix2 b c) a) = ix2 c a := fun a => funext fun d =>
    match d with | ⟨0, _⟩ => rfl | ⟨1, _⟩ => rfl
  have hb10 : idx_main_v9 (idx_main_v10 (ix2 b c)) = ix1 c := funext fun d =>
    match d with | ⟨0, _⟩ => rfl
  have hb13 : idx_main_v12 (idx_main_v13 (ix2 b c)) = ix1 c := funext fun d =>
    match d with | ⟨0, _⟩ => rfl
  rw [val_main_v14_apply, val_main_v11_apply, val_main_v8_apply, val_main_v5_apply, val_main_v7_apply,
    val_main_v10_apply, val_main_v9_apply, val_main_v13_apply, val_main_v12_apply, hb10, hb13]
  simp only [Ideal.addf_def]
  congr 3
  · exact Finset.sum_congr rfl fun a _ => by rw [val_main_v4_apply, hl5, hr5]
  · exact Finset.sum_congr rfl fun a _ => by rw [val_main_v6_apply, hl7, hr7]

/-! ## The four column bands are the four gates' pre-activations

Band `g` at column `j` is column `2048 g + j` of the joined pre-activation, whose weight rows and bias entries are
those of gate `g` alone. -/

theorem band_i (b : Fin 4096) (j : Fin 2048) :
    val_main_v15 (F := Ideal) x0 x1 x3 x4 x5 x6 x7 x8 x9 x10 x11 x12 x13 x14 x15 x16 x17 x18 (ix2 b j)
      = Cert.Lstm.gate x0 x1 x3 x5 x4 x6 b j := by
  have hi : idx_main_v15 (ix2 b j) = ix2 b (⟨j.val, by have := j.isLt; omega⟩ : Fin 8192) :=
    funext fun d => match d with | ⟨0, _⟩ => rfl | ⟨1, _⟩ => rfl
  rw [val_main_v15_apply, hi, joined_apply]
  unfold val_main_v0 val_main_v1 val_main_v2 val_main_v3 Cert.Lstm.gate
  simp only [stack_mat0, join_vec0]

theorem band_f (b : Fin 4096) (j : Fin 2048) :
    val_main_v16 (F := Ideal) x0 x1 x3 x4 x5 x6 x7 x8 x9 x10 x11 x12 x13 x14 x15 x16 x17 x18 (ix2 b j)
      = Cert.Lstm.gate x0 x1 x7 x9 x8 x10 b j := by
  have hi : idx_main_v16 (ix2 b j) = ix2 b (⟨2048 + j.val, by have := j.isLt; omega⟩ : Fin 8192) :=
    funext fun d => match d with | ⟨0, _⟩ => rfl | ⟨1, _⟩ => rfl
  rw [val_main_v16_apply, hi, joined_apply]
  unfold val_main_v0 val_main_v1 val_main_v2 val_main_v3 Cert.Lstm.gate
  simp only [stack_mat1, join_vec1]

theorem band_g (b : Fin 4096) (j : Fin 2048) :
    val_main_v17 (F := Ideal) x0 x1 x3 x4 x5 x6 x7 x8 x9 x10 x11 x12 x13 x14 x15 x16 x17 x18 (ix2 b j)
      = Cert.Lstm.gate x0 x1 x11 x13 x12 x14 b j := by
  have hi : idx_main_v17 (ix2 b j) = ix2 b (⟨4096 + j.val, by have := j.isLt; omega⟩ : Fin 8192) :=
    funext fun d => match d with | ⟨0, _⟩ => rfl | ⟨1, _⟩ => rfl
  rw [val_main_v17_apply, hi, joined_apply]
  unfold val_main_v0 val_main_v1 val_main_v2 val_main_v3 Cert.Lstm.gate
  simp only [stack_mat2, join_vec2]

theorem band_o (b : Fin 4096) (j : Fin 2048) :
    val_main_v18 (F := Ideal) x0 x1 x3 x4 x5 x6 x7 x8 x9 x10 x11 x12 x13 x14 x15 x16 x17 x18 (ix2 b j)
      = Cert.Lstm.gate x0 x1 x15 x17 x16 x18 b j := by
  have hi : idx_main_v18 (ix2 b j) = ix2 b (⟨6144 + j.val, by have := j.isLt; omega⟩ : Fin 8192) :=
    funext fun d => match d with | ⟨0, _⟩ => rfl | ⟨1, _⟩ => rfl
  rw [val_main_v18_apply, hi, joined_apply]
  unfold val_main_v0 val_main_v1 val_main_v2 val_main_v3 Cert.Lstm.gate
  simp only [stack_mat3, join_vec3]

/-! ## The gates' activations, the new cell state and the new hidden state -/

theorem sigma_i (i : S4096x2048.Idx) :
    val_main_v24 (F := Ideal) x0 x1 x3 x4 x5 x6 x7 x8 x9 x10 x11 x12 x13 x14 x15 x16 x17 x18 i
      = Ideal.logistic (val_main_v15 (F := Ideal) x0 x1 x3 x4 x5 x6 x7 x8 x9 x10 x11 x12 x13 x14 x15 x16 x17 x18 i) := by
  rw [val_main_v24_apply, val_main_v23_apply, val_main_cst_0_apply, val_main_v22_apply, val_main_v21_apply,
    val_main_cst_apply, val_main_v20_apply, val_main_v19_apply]
  exact logistic_spelt _

theorem sigma_f (i : S4096x2048.Idx) :
    val_main_v30 (F := Ideal) x0 x1 x3 x4 x5 x6 x7 x8 x9 x10 x11 x12 x13 x14 x15 x16 x17 x18 i
      = Ideal.logistic (val_main_v16 (F := Ideal) x0 x1 x3 x4 x5 x6 x7 x8 x9 x10 x11 x12 x13 x14 x15 x16 x17 x18 i) := by
  rw [val_main_v30_apply, val_main_v29_apply, val_main_cst_2_apply, val_main_v28_apply, val_main_v27_apply,
    val_main_cst_1_apply, val_main_v26_apply, val_main_v25_apply]
  exact logistic_spelt _

theorem sigma_o (i : S4096x2048.Idx) :
    val_main_v37 (F := Ideal) x0 x1 x3 x4 x5 x6 x7 x8 x9 x10 x11 x12 x13 x14 x15 x16 x17 x18 i
      = Ideal.logistic (val_main_v18 (F := Ideal) x0 x1 x3 x4 x5 x6 x7 x8 x9 x10 x11 x12 x13 x14 x15 x16 x17 x18 i) := by
  rw [val_main_v37_apply, val_main_v36_apply, val_main_cst_4_apply, val_main_v35_apply, val_main_v34_apply,
    val_main_cst_3_apply, val_main_v33_apply, val_main_v32_apply]
  exact logistic_spelt _

/-- The new cell state: `σ(z_f) · c + σ(z_i) · tanh(z_g)`. -/
theorem cell_apply (b : Fin 4096) (j : Fin 2048) :
    val_main_v40 (F := Ideal) x0 x1 x2 x3 x4 x5 x6 x7 x8 x9 x10 x11 x12 x13 x14 x15 x16 x17 x18 (ix2 b j)
      = Cert.Lstm.cNew ⟨x0, x1, x2, x3, x4, x5, x6, x7, x8, x9, x10, x11, x12, x13, x14, x15, x16, x17, x18⟩ b j := by
  rw [val_main_v40_apply, val_main_v38_apply, val_main_v39_apply, val_main_v31_apply, sigma_f, sigma_i, band_i,
    band_f, band_g]
  rfl

/-- The new hidden state: `σ(z_o) · tanh(c')`. -/
theorem hidden_apply (b : Fin 4096) (j : Fin 2048) :
    val_main_v42 (F := Ideal) x0 x1 x2 x3 x4 x5 x6 x7 x8 x9 x10 x11 x12 x13 x14 x15 x16 x17 x18 (ix2 b j)
      = Cert.Lstm.hNew ⟨x0, x1, x2, x3, x4, x5, x6, x7, x8, x9, x10, x11, x12, x13, x14, x15, x16, x17, x18⟩ b j := by
  rw [val_main_v42_apply, val_main_v41_apply, sigma_o, band_o, cell_apply]
  rfl

/-! ## The stacked result

Plane 0 of the result is the new hidden state with a leading unit axis, plane 1 the new cell state with one. -/

theorem plane0 (b : Fin 4096) (j : Fin 2048) :
    val_main_v45 (F := Ideal) x0 x1 x2 x3 x4 x5 x6 x7 x8 x9 x10 x11 x12 x13 x14 x15 x16 x17 x18 (ix3 (0 : Fin 2) b j)
      = Cert.Lstm.hNew ⟨x0, x1, x2, x3, x4, x5, x6, x7, x8, x9, x10, x11, x12, x13, x14, x15, x16, x17, x18⟩ b j := by
  have hi : idx_main_v43 (ix3 (0 : Fin 1) b j) = ix2 b j := funext fun d =>
    match d with | ⟨0, _⟩ => rfl | ⟨1, _⟩ => rfl
  unfold val_main_v45
  refine (concatenate_pair_apply_left (s₁ := S1x4096x2048) (s₂ := S1x4096x2048) (0 : Fin S2x4096x2048.rank) _ _ _
    (ix3 (0 : Fin 2) b j) rfl (ix3 (0 : Fin 1) b j)
    (fun d => match d with | ⟨0, _⟩ => rfl | ⟨1, _⟩ => rfl | ⟨2, _⟩ => rfl)).trans ?_
  rw [val_main_v43_apply, hi, hidden_apply]

theorem plane1 (b : Fin 4096) (j : Fin 2048) :
    val_main_v45 (F := Ideal) x0 x1 x2 x3 x4 x5 x6 x7 x8 x9 x10 x11 x12 x13 x14 x15 x16 x17 x18 (ix3 (1 : Fin 2) b j)
      = Cert.Lstm.cNew ⟨x0, x1, x2, x3, x4, x5, x6, x7, x8, x9, x10, x11, x12, x13, x14, x15, x16, x17, x18⟩ b j := by
  have hi : idx_main_v44 (ix3 (0 : Fin 1) b j) = ix2 b j := funext fun d =>
    match d with | ⟨0, _⟩ => rfl | ⟨1, _⟩ => rfl
  unfold val_main_v45
  refine (concatenate_pair_apply_right (s₁ := S1x4096x2048) (s₂ := S1x4096x2048) (0 : Fin S2x4096x2048.rank) _ _ _
    (ix3 (1 : Fin 2) b j) rfl rfl (ix3 (0 : Fin 1) b j)
    (fun d hd => match d, hd with
      | ⟨0, _⟩, hd => absurd rfl hd
      | ⟨1, _⟩, _ => rfl
      | ⟨2, _⟩, _ => rfl) rfl).trans ?_
  rw [val_main_v44_apply, hi, cell_apply]

end Reference

/-- The reference's last stage, as a function of the nineteen argument arrays, is the stacked LSTM result. -/
theorem result_eq (x0 x1 x2 : (⟨S4096x2048, .f32⟩ : BufTy).Contents (Elt Ideal))
    (x3 : (⟨S2048x2048, .f32⟩ : BufTy).Contents (Elt Ideal)) (x4 : (⟨S2048, .f32⟩ : BufTy).Contents (Elt Ideal))
    (x5 : (⟨S2048x2048, .f32⟩ : BufTy).Contents (Elt Ideal)) (x6 : (⟨S2048, .f32⟩ : BufTy).Contents (Elt Ideal))
    (x7 : (⟨S2048x2048, .f32⟩ : BufTy).Contents (Elt Ideal)) (x8 : (⟨S2048, .f32⟩ : BufTy).Contents (Elt Ideal))
    (x9 : (⟨S2048x2048, .f32⟩ : BufTy).Contents (Elt Ideal)) (x10 : (⟨S2048, .f32⟩ : BufTy).Contents (Elt Ideal))
    (x11 : (⟨S2048x2048, .f32⟩ : BufTy).Contents (Elt Ideal)) (x12 : (⟨S2048, .f32⟩ : BufTy).Contents (Elt Ideal))
    (x13 : (⟨S2048x2048, .f32⟩ : BufTy).Contents (Elt Ideal)) (x14 : (⟨S2048, .f32⟩ : BufTy).Contents (Elt Ideal))
    (x15 : (⟨S2048x2048, .f32⟩ : BufTy).Contents (Elt Ideal)) (x16 : (⟨S2048, .f32⟩ : BufTy).Contents (Elt Ideal))
    (x17 : (⟨S2048x2048, .f32⟩ : BufTy).Contents (Elt Ideal)) (x18 : (⟨S2048, .f32⟩ : BufTy).Contents (Elt Ideal)) :
    val_main_v45 (F := Ideal) x0 x1 x2 x3 x4 x5 x6 x7 x8 x9 x10 x11 x12 x13 x14 x15 x16 x17 x18
      = Cert.Lstm.out ⟨x0, x1, x2, x3, x4, x5, x6, x7, x8, x9, x10, x11, x12, x13, x14, x15, x16, x17, x18⟩ := by
  funext i
  obtain ⟨s, b, j, rfl⟩ : ∃ (s : Fin 2) (b : Fin 4096) (j : Fin 2048), i = ix3 s b j := ⟨i 0, i 1, i 2, eq_ix3 i⟩
  match s with
  | ⟨0, _⟩ =>
    exact (plane0 x0 x1 x2 x3 x4 x5 x6 x7 x8 x9 x10 x11 x12 x13 x14 x15 x16 x17 x18 b j).trans
      (Cert.Lstm.out_plane0 _ b j).symm
  | ⟨1, _⟩ =>
    exact (plane1 x0 x1 x2 x3 x4 x5 x6 x7 x8 x9 x10 x11 x12 x13 x14 x15 x16 x17 x18 b j).trans
      (Cert.Lstm.out_plane1 _ b j).symm

end Cert.ReferenceIdeal.RefValue

end
-- ==== Proof.LibRunAnd.lean ====
/-
  Two observations of one run hold together.

  `θ_run defs p s Q` says that every weakly fair execution of the program `p` from the memory `s` is finite and ends in a
  final state satisfying `Q`. Termination and the absence of deadlock do not depend on `Q`, and a final state that
  satisfies `Q` and `Q'` satisfies both: so two such observations of the same program from the same memory give the
  observation of their conjunction.
-/
import Idealize.ShloMosaic.Machine.Run

namespace Cert.Lib.RunAnd

open Idealize.ShloMosaic Idealize.SL.Sem

theorem θ_run_and {nD : Nat} {τ : Topo} {sig : RefSig} {Val : EltTy → Type} {Λ : Labels}
    (defs : Defs nD τ sig Val Λ) (p : (c : Thread nD τ) → Prog (TpuEff nD τ sig Val Λ c.2) PUnit)
    (s : MemSt nD τ sig Val) {Q Q' : PUnit × MemSt nD τ sig Val → Prop}
    (h : θ_run defs p s Q) (h' : θ_run defs p s Q') : θ_run defs p s fun r => Q r ∧ Q' r := by
  have hm : MeshRun defs (fun m' => Q (⟨⟩, m')) (load p s) := h
  have hm' : MeshRun defs (fun m' => Q' (⟨⟩, m')) (load p s) := h'
  exact (⟨fun t ht hf => ⟨hm.post t ht hf, hm'.post t ht hf⟩, hm.progress, hm.fair⟩ :
    MeshRun defs (fun m' => Q (⟨⟩, m') ∧ Q' (⟨⟩, m')) (load p s))

end Cert.Lib.RunAnd
-- ==== Proof.lean ====
/-
  An LSTM cell computed by one fused kernel equals its two-matrix-product reference, over the extended reals.

  For a batch row `b` and a hidden unit `j`, each of the four gates (input, forget, cell, output) has the
  pre-activation `z = ((Σ_a x(b, a) · Wx(j, a) + Σ_a h(b, a) · Wh(j, a)) + bx(j)) + bh(j)`; the new cell state is
  `c' = σ(z_f) · c + σ(z_i) · tanh(z_g)` and the new hidden state `h' = σ(z_o) · tanh(c')`; the result stacks `h'` over
  `c'` (`Cert.Lstm.out`, Proof/Spec.lean).

  The kernel tiles the [4096, 2048] outputs into 8 × 4 blocks of 512 × 512 and forms each gate, for one block, from a
  512-row block of `x` and of `h` and a 512-row block of that gate's two weight matrices (a product with the transposed
  weight block) plus a 512-entry piece of its two biases. Each block it writes is a block of the whole-array functions
  `h'` and `c'` (Proof/KernelGate.lean, KernelOut.lean, KernelBlocks.lean, KernelFlush.lean), the blocks tile the
  arrays, and the host then stacks the two arrays (Proof/KernelRun.lean).

  The reference joins the four gates' weight matrices into one [8192, 2048] matrix per side and their biases into one
  [8192] vector per side, takes two matrix products, and cuts the result into four column bands; band `g` at column `j`
  reads row `j` of gate `g`'s own matrix, so each band is that gate's pre-activation (Proof/RefValue.lean).

  The two sides multiply and add in the same order, the kernel's change of float format is the identity on the extended
  reals, and its logistic function is by definition `1 / (1 + exp (-z))`, which is how the reference spells it: the two
  results are one function of the arguments, and no hypothesis on the inputs is used.
-/
import proofs.«114114_j17480516895199_1_alg».proof.Defs
import proofs.«114114_j17480516895199_1_alg».proof.Proof.Gen.Kernel
import proofs.«114114_j17480516895199_1_alg».proof.Proof.Gen.Kernel.Skeleton
import proofs.«114114_j17480516895199_1_alg».proof.Proof.Gen.Kernel.Launch
import proofs.«114114_j17480516895199_1_alg».proof.Proof.Gen.Kernel.Points
import proofs.«114114_j17480516895199_1_alg».proof.Proof.Gen.Kernel.Frame
import proofs.«114114_j17480516895199_1_alg».proof.Proof.Gen.KernelIdeal
import proofs.«114114_j17480516895199_1_alg».proof.Proof.Gen.KernelIdeal.Skeleton
import proofs.«114114_j17480516895199_1_alg».proof.Proof.Gen.KernelIdeal.Launch
import proofs.«114114_j17480516895199_1_alg».proof.Proof.Gen.KernelIdeal.Points
import proofs.«114114_j17480516895199_1_alg».proof.Proof.Gen.KernelIdeal.Frame
import proofs.«114114_j17480516895199_1_alg».proof.Proof.Gen.ReferenceIdeal
import proofs.«114114_j17480516895199_1_alg».proof.Proof.Gen.Pre_finite_inputs
import proofs.«114114_j17480516895199_1_alg».proof.Proof.Gen.ReferenceIdeal.Run
import proofs.«114114_j17480516895199_1_alg».proof.Proof.Gen.ReferenceIdeal.Read
import proofs.«114114_j17480516895199_1_alg».proof.Proof.KernelRun
import proofs.«114114_j17480516895199_1_alg».proof.Proof.RefValue
import proofs.«114114_j17480516895199_1_alg».proof.Proof.LibRunAnd
import Idealize.ShloMosaic.Adequacy
import Idealize.ShloMosaic.Init

noncomputable section

namespace Cert.Proof

open Idealize.ShloMosaic Idealize.SL.Sem

/-- The word-level kernel runs, and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is straight-line host code: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the stacked LSTM result of the arguments. -/
theorem algebraic : Cert.algebraic_KernelIdeal_ReferenceIdeal := by
  intro m ρ m' ρ' _ hagree
  refine ⟨fun c => Cert.Lstm.out (Cert.KernelIdeal.Blocks.argsOf m c), ?_, ?_⟩
  · exact (θ_run Cert.KernelIdeal.defs _ _).mono (fun r h c => ⟨h.1 c, h.2 c⟩)
      (Cert.Lib.RunAnd.θ_run_and _ _ _ (Cert.KernelIdeal.Blocks.result_run m ρ) (Cert.KernelIdeal.Gen.frame m ρ))
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14, h15, h16, h17, h18⟩ := hagree c
    rw [Cert.ReferenceIdeal.Read.val_main_v45_eq, Cert.ReferenceIdeal.RefValue.result_eq,
      h0, h1, h2, h3, h4, h5, h6, h7, h8, h9, h10, h11, h12, h13, h14, h15, h16, h17, h18]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
